-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1000x128 : Shape := ⟨2, ![1000, 128]⟩
abbrev S800000x128 : Shape := ⟨2, ![800000, 128]⟩
abbrev S8000x128 : Shape := ⟨2, ![8000, 128]⟩
abbrev S8000x1 : Shape := ⟨2, ![8000, 1]⟩
abbrev S1000x1 : Shape := ⟨2, ![1000, 1]⟩
abbrev S1x40 : Shape := ⟨2, ![1, 40]⟩
abbrev S50000x40 : Shape := ⟨2, ![50000, 40]⟩
abbrev S1000x40 : Shape := ⟨2, ![1000, 40]⟩

abbrev nBuf : Space → Nat
  | .hbm => 113
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000, .f32⟩
  | .hbm, ⟨62, _⟩ => ⟨S800000, .f32⟩
  | .hbm, ⟨63, _⟩ => ⟨S800000x1, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S_, .f32⟩
  | .hbm, ⟨72, _⟩ => ⟨S128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000, .f32⟩
  | .hbm, ⟨102, _⟩ => ⟨S800000, .f32⟩
  | .hbm, ⟨103, _⟩ => ⟨S800000x1, .f32⟩
  | .hbm, ⟨104, _⟩ => ⟨S800000x128, .f32⟩
  | .hbm, ⟨105, _⟩ => ⟨S_, .f32⟩
  | .hbm, ⟨106, _⟩ => ⟨S50000x128, .f32⟩
  | .hbm, ⟨107, _⟩ => ⟨S800000x1, .i32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S1x40, .f32⟩
  | .hbm, ⟨112, _⟩ => ⟨S50000x40, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S8000x128, .f32⟩
  | .local _ .vmem, ⟨7, _⟩ => ⟨S8000x128, .f32⟩
  | .local _ .vmem, ⟨8, _⟩ => ⟨S8000x1, .f32⟩
  | .local _ .vmem, ⟨9, _⟩ => ⟨S8000x1, .f32⟩
  | .local _ .vmem, ⟨10, _⟩ => ⟨S8000x128, .f32⟩
  | .local _ .vmem, ⟨11, _⟩ => ⟨S8000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x1, .f32⟩
  | .local _ .vmem, ⟨17, _⟩ => ⟨S1000x1, .f32⟩
  | .local _ .vmem, ⟨18, _⟩ => ⟨S1x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S128x128, .f32⟩
  | .local _ .vmem, ⟨24, _⟩ => ⟨S1x128, .f32⟩
  | .local _ .vmem, ⟨25, _⟩ => ⟨S1000x128, .f32⟩
  | .local _ .vmem, ⟨26, _⟩ => ⟨S1000x128, .f32⟩
  | .local _ .vmem, ⟨27, _⟩ => ⟨S8000x128, .f32⟩
  | .local _ .vmem, ⟨28, _⟩ => ⟨S8000x128, .f32⟩
  | .local _ .vmem, ⟨29, _⟩ => ⟨S8000x1, .f32⟩
  | .local _ .vmem, ⟨30, _⟩ => ⟨S8000x1, .f32⟩
  | .local _ .vmem, ⟨31, _⟩ => ⟨S8000x128, .f32⟩
  | .local _ .vmem, ⟨32, _⟩ => ⟨S8000x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x1, .f32⟩
  | .local _ .vmem, ⟨38, _⟩ => ⟨S1000x1, .f32⟩
  | .local _ .vmem, ⟨39, _⟩ => ⟨S1x128, .f32⟩
  | .local _ .vmem, ⟨40, _⟩ => ⟨S1000x128, .f32⟩
  | .local _ .vmem, ⟨41, _⟩ => ⟨S1000x128, .f32⟩
  | .local _ .vmem, ⟨42, _⟩ => ⟨S1000x128, .f32⟩
  | .local _ .vmem, ⟨43, _⟩ => ⟨S1000x128, .f32⟩
  | .local _ .vmem, ⟨44, _⟩ => ⟨S128x40, .f32⟩
  | .local _ .vmem, ⟨45, _⟩ => ⟨S1x40, .f32⟩
  | .local _ .vmem, ⟨46, _⟩ => ⟨S1000x40, .f32⟩
  | .local _ .vmem, ⟨47, _⟩ => ⟨S1000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  bcast_S_S128 : S_.BroadcastsInDim S128 (![] : Fin 0 → Fin S128.rank)
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S800000_S800000x1 : S800000.ShapeCasts S800000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  inb_S1000x40_S1000x40_0_0 : ∀ a, (![0, 0] : Fin 2 → Nat) a + S1000x40.size a ≤ S1000x40.size a
  h_S1000x40 : 0 < S1000x40.numel
  scatter_S50000_S800000x1_S800000_n_0_0_1_wf : ScatterDims.WF S50000 S800000x1 S800000 [] [0] [0] 1
  dot_S1000x128_S128x128_S1000x128_1_0_0_1_n_n_wf : DotDims.WF S1000x128 S128x128 S1000x128 [1] [0] [0] [1] [] []
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S1000x128_S128x40_S1000x40_1_0_0_1_n_n_wf : DotDims.WF S1000x128 S128x40 S1000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .f32 = 32 ∨ (Rect.block (s := S50000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S50000x128.size a
  hwx2_4 : ∀ i : grid2.Coords, EltTy.bits .f32 = 32 ∨ (Rect.block (s := S50000x128) S1000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S50000x128.size a
  hwx3_3 : ∀ i : grid3.Coords, EltTy.bits .f32 = 32 ∨ (Rect.block (s := S50000x128) S1000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .f32 = 32 ∨ (Rect.block (s := S800000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S800000x1.size a
  hwx4_1 : ∀ i : grid4.Coords, EltTy.bits .f32 = 32 ∨ (Rect.block (s := S800000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S800000x128.size a
  hwx4_2 : ∀ i : grid4.Coords, EltTy.bits .f32 = 32 ∨ (Rect.block (s := S800000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S50000x128.size a
  hwx5_1 : ∀ i : grid5.Coords, EltTy.bits .f32 = 32 ∨ (Rect.block (s := S50000x128) S1000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x1.size a ≤ S50000x1.size a
  hwx5_2 : ∀ i : grid5.Coords, EltTy.bits .f32 = 32 ∨ (Rect.block (s := S50000x1) S1000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x128.size a ≤ S50000x128.size a
  hwx5_4 : ∀ i : grid5.Coords, EltTy.bits .f32 = 32 ∨ (Rect.block (s := S50000x128) S1000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S50000x128.size a
  hwx6_0 : ∀ i : grid6.Coords, EltTy.bits .f32 = 32 ∨ (Rect.block (s := S50000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x40.size a ≤ S50000x40.size a
  hwx6_3 : ∀ i : grid6.Coords, EltTy.bits .f32 = 32 ∨ (Rect.block (s := S50000x40) S1000x40.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x40_S1000x40_1_0_0_1_n_n : DotDims S1000x128 S128x40 S1000x40 where
  lhsContracting := [1]
  rhsContracting := [0]
  lhsNonContracting := [0]
  rhsNonContracting := [1]
  lhsBatch := []
  rhsBatch := []
  wf := dot_S1000x128_S128x40_S1000x40_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v59) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v76) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S1000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S1000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v81) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S1000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000, .f32⟩
  | .hbm, ⟨95, _⟩ => ⟨S800000, .f32⟩
  | .hbm, ⟨96, _⟩ => ⟨S800000x1, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x128, .f32⟩
  | .hbm, ⟨107, _⟩ => ⟨S800000x128, .f32⟩
  | .hbm, ⟨108, _⟩ => ⟨S_, .f32⟩
  | .hbm, ⟨109, _⟩ => ⟨S50000x128, .f32⟩
  | .hbm, ⟨110, _⟩ => ⟨S800000x1, .i32⟩
  | .hbm, ⟨111, _⟩ => ⟨S50000x128, .f32⟩
  | .hbm, ⟨112, _⟩ => ⟨S50000, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | .hbm, ⟨120, _⟩ => ⟨S_, .f32⟩
  | .hbm, ⟨121, _⟩ => ⟨S50000x128, .f32⟩
  | .hbm, ⟨122, _⟩ => ⟨S50000x128, .f32⟩
  | .hbm, ⟨123, _⟩ => ⟨S50000x40, .f32⟩
  | .hbm, ⟨124, _⟩ => ⟨S1x40, .f32⟩
  | .hbm, ⟨125, _⟩ => ⟨S50000x40, .f32⟩
  | .hbm, ⟨126, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_call1_cst : Ref sig .tc := ⟨.hbm, 120, rfl⟩
abbrev main_call1_v0 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Spec.lean ====
/-
  One graph-convolution network on the extended reals, index by index.

  Three whole-array functions make up a layer.  `lin x w b` is the affine map: entry (r, c) is the sum over k of
  x(r, k) · w(k, c), plus the bias row b(0, c).  `escale h coef` multiplies row e of the gathered features by that
  edge's normalisation coefficient coef(e, 0).  `npost agg h d b` is the node update: entry (r, c) is
  max((agg(r, c) + h(r, c) · d(r, 0)) + b(0, c), 0), the aggregated messages plus the self loop plus the bias, rectified.

  The zero of the rectifier is kept as the float word it is written with, so that both programs name the same constant
  and it is never evaluated.
-/
import Idealize.ShloMosaic.PureOps.Ideal
import Idealize.ShloMosaic.Lib.ValueIdx

noncomputable section

namespace Cert.Gcn

open Idealize.ShloMosaic Idealize.ShloMosaic.ValueIdx

/-- The affine layer: `x · w` plus the bias row, entry by entry. -/
def lin {R K C : Nat} (x : (⟨2, ![R, K]⟩ : Shape).Idx → EReal) (w : (⟨2, ![K, C]⟩ : Shape).Idx → EReal)
    (b : (⟨2, ![1, C]⟩ : Shape).Idx → EReal) : (⟨2, ![R, C]⟩ : Shape).Idx → EReal :=
  fun i => (∑ k : Fin K, x (ix2 (i 0 : Fin R) k) * w (ix2 k (i 1 : Fin C))) + b (ix2 (0 : Fin 1) (i 1 : Fin C))

theorem lin_apply {R K C : Nat} (x : (⟨2, ![R, K]⟩ : Shape).Idx → EReal) (w : (⟨2, ![K, C]⟩ : Shape).Idx → EReal)
    (b : (⟨2, ![1, C]⟩ : Shape).Idx → EReal) (r : Fin R) (c : Fin C) :
    lin x w b (ix2 r c) = (∑ k : Fin K, x (ix2 r k) * w (ix2 k c)) + b (ix2 (0 : Fin 1) c) := rfl

/-- Each gathered row scaled by its edge's coefficient. -/
def escale {E C : Nat} (h : (⟨2, ![E, C]⟩ : Shape).Idx → EReal) (coef : (⟨2, ![E, 1]⟩ : Shape).Idx → EReal) :
    (⟨2, ![E, C]⟩ : Shape).Idx → EReal :=
  fun i => h i * coef (ix2 (i 0 : Fin E) (0 : Fin 1))

theorem escale_apply {E C : Nat} (h : (⟨2, ![E, C]⟩ : Shape).Idx → EReal) (coef : (⟨2, ![E, 1]⟩ : Shape).Idx → EReal)
    (e : Fin E) (c : Fin C) : escale h coef (ix2 e c) = h (ix2 e c) * coef (ix2 e (0 : Fin 1)) := rfl

/-- The node update: messages plus self loop plus bias, rectified at the float zero. -/
def npost {R C : Nat} (agg h : (⟨2, ![R, C]⟩ : Shape).Idx → EReal) (d : (⟨2, ![R, 1]⟩ : Shape).Idx → EReal)
    (b : (⟨2, ![1, C]⟩ : Shape).Idx → EReal) : (⟨2, ![R, C]⟩ : Shape).Idx → EReal :=
  fun i => max ((agg i + h i * d (ix2 (i 0 : Fin R) (0 : Fin 1))) + b (ix2 (0 : Fin 1) (i 1 : Fin C)))
    (Ideal.ofBits .f32 0x00000000#32)

theorem npost_apply {R C : Nat} (agg h : (⟨2, ![R, C]⟩ : Shape).Idx → EReal) (d : (⟨2, ![R, 1]⟩ : Shape).Idx → EReal)
    (b : (⟨2, ![1, C]⟩ : Shape).Idx → EReal) (r : Fin R) (c : Fin C) :
    npost agg h d b (ix2 r c)
      = max ((agg (ix2 r c) + h (ix2 r c) * d (ix2 r (0 : Fin 1))) + b (ix2 (0 : Fin 1) c)) (Ideal.ofBits .f32 0x00000000#32) := rfl

end Cert.Gcn

end
-- ==== Proof.Region0.lean ====
/-
  The first layer's feature product: the array the first pallas_call leaves, as one function of the arrays it finds.

  The region's grid has fifty points; point t works on rows 1000·t … 1000·t + 999.  Its body multiplies the point's block
  of rows by the whole weight matrix and adds the bias row, so what it writes back is its block of ONE whole-array
  function: entry (r, c) is the sum over k of x(r, k) · w(k, c), plus b(0, c).  The blocks tile the array, hence the array
  after the region is that function.
-/
import proofs.«120160_j74345883894179_1_alg».proof.Proof.Gen.KernelIdeal.Frame
import proofs.«120160_j74345883894179_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's product at an entry -/

/-- The left operand's row coordinate is the result's row. -/
theorem lhs_axis0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The left operand's column coordinate is the contraction index. -/
theorem lhs_axis1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right operand's row coordinate is the contraction index. -/
theorem rhs_axis0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- The right operand's column coordinate is the result's column. -/
theorem rhs_axis1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The block product into a zero accumulator, read at (p, q): the plain sum over the contraction index. -/
theorem product_apply {φ₁ φ₂ : FTy} (x : FVec Ideal S1000x128 φ₁) (w : FVec Ideal S128x128 φ₂) (p : Fin 1000) (q : Fin 128) :
    FloatOps.matmul (F := Ideal) dot_S1000x128_S128x128_S1000x128_1_0_0_1_n_n none x w (constant (F := Ideal) S1000x128 .f32 0x00000000#32) (ix2 p q)
      = ∑ k : Fin 128, x (ix2 p k) * w (ix2 k q) := by
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's stored value at an entry of its block: the product's sum plus the bias row's entry. -/
theorem payload_apply (x : Vec Ideal S1000x128 .f32) (w : Vec Ideal S128x128 .f32) (b : Vec Ideal S1x128 .f32) (y : S1000x128.Idx) :
    k0_pay1 (F := Ideal) x w b y
      = (∑ k : Fin 128, x (ix2 (y 0 : Fin 1000) k) * w (ix2 k (y 1 : Fin 128))) + b (ix2 (0 : Fin 1) (y 1 : Fin 128)) := by
  obtain ⟨p, q, rfl⟩ : ∃ (p : Fin 1000) (q : Fin 128), y = ix2 p q := ⟨y 0, y 1, eq_ix2 y⟩
  unfold k0_pay1
  show FloatOps.matmul (F := Ideal) dot_S1000x128_S128x128_S1000x128_1_0_0_1_n_n none _ _ (constant (F := Ideal) S1000x128 .f32 0x00000000#32) (ix2 p q)
      + broadcastTo S1000x128 (shapeCast S1x128 b _) _ (ix2 p q) = _
  rw [product_apply, broadcastTo_1b_ab_apply]
  simp only [shapeCast_self]
  rfl

/-! ## What a point writes back, and the array after the region -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the input and of the output move together with the point,
    every other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The arrays as the region finds them, at their literal types. -/
abbrev xarr (c : Dev nD) : (⟨2, ![50000, 128]⟩ : Shape).Idx → EReal := V c main_arg0
abbrev warr (c : Dev nD) : (⟨2, ![128, 128]⟩ : Shape).Idx → EReal := V c main_arg2
abbrev barr (c : Dev nD) : (⟨2, ![1, 128]⟩ : Shape).Idx → EReal := V c main_v19

/-- The point's blocks, at their literal vector types. -/
abbrev xblk (c : Dev nD) (t : Fin cfg0.N) : Vec Ideal S1000x128 .f32 := iblk0 V c 0 t
abbrev wblk (c : Dev nD) (t : Fin cfg0.N) : Vec Ideal S128x128 .f32 := iblk0 V c 1 t
abbrev bblk (c : Dev nD) (t : Fin cfg0.N) : Vec Ideal S1x128 .f32 := iblk0 V c 2 t

/-- WHAT POINT `t` WRITES BACK is block `t` of the affine map of the arrays as the region finds them. -/
theorem flushed_eq (c : Dev nD) (t : Fin cfg0.N) :
    (dat0 (F := Ideal) V c).flushed 3 t = ((cfg0.win 3).blk t).view.read (Elt Ideal)
      (Gcn.lin (R := 50000) (K := 128) (C := 128) (xarr V c) (warr V c) (barr V c)) := by
  show (cfg0.win 3).cut (grid0.coords t) ((dat0 V c).after 3 t) = _
  rw [after0_3]
  unfold out0_3
  rw [View.canon_unit_zero origin]
  simp only [View.ld_unit_zero (S := S1000x128) origin, View.ld_unit_zero (S := S128x128) origin, View.ld_unit_zero (S := S1x128) origin]
  obtain ⟨e0, e1, e2, e3, e4, e5, e6, e7⟩ := index_facts t
  funext j
  show k0_pay1 (F := Ideal) (xblk V c t) (wblk V c t) (bblk V c t) j = _
  rw [payload_apply]
  show (∑ k : Fin 128, xarr V c (((cfg0.win 0).blk t).view.emb (ix2 (j 0 : Fin 1000) k)) * warr V c (((cfg0.win 1).blk t).view.emb (ix2 k (j 1 : Fin 128))))
      + barr V c (((cfg0.win 2).blk t).view.emb (ix2 (0 : Fin 1) (j 1 : Fin 128)))
    = (∑ k : Fin 128, xarr V c (ix2 ((((cfg0.win 3).blk t).view.emb j) 0 : Fin 50000) k) * warr V c (ix2 k ((((cfg0.win 3).blk t).view.emb j) 1 : Fin 128)))
      + barr V c (ix2 (0 : Fin 1) ((((cfg0.win 3).blk t).view.emb j) 1 : Fin 128))
  have hj0 : (j 0).val < 1000 := (j 0).isLt
  have hj1 : (j 1).val < 128 := (j 1).isLt
  have hx : ∀ k : Fin 128, ((cfg0.win 0).blk t).view.emb (ix2 (j 0 : Fin 1000) k) = ix2 ((((cfg0.win 3).blk t).view.emb j) 0 : Fin 50000) k := by
    intro k; funext a; apply Fin.ext
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 128 + 1 * k.val = k.val; have := k.isLt; omega
  have hw : ∀ k : Fin 128, ((cfg0.win 1).blk t).view.emb (ix2 k (j 1 : Fin 128)) = ix2 k ((((cfg0.win 3).blk t).view.emb j) 1 : Fin 128) := by
    intro k; funext a; apply Fin.ext
    match a with
    | ⟨0, _⟩ => show win0_1.index t (0 : Fin 2) * 128 + 1 * k.val = k.val; have := k.isLt; omega
    | ⟨1, _⟩ => show win0_1.index t (1 : Fin 2) * 128 + 1 * (j 1).val = win0_3.index t (1 : Fin 2) * 128 + 1 * (j 1).val; omega
  have hb : ((cfg0.win 2).blk t).view.emb (ix2 (0 : Fin 1) (j 1 : Fin 128)) = ix2 (0 : Fin 1) ((((cfg0.win 3).blk t).view.emb j) 1 : Fin 128) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  rw [hb]
  exact congrArg (· + _) (Finset.sum_congr rfl fun k _ => by rw [hx k, hw k]; rfl)

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v20).slice (win0_3.rect t)).set ↔ _
  rw [View.set_slice_whole, Rect.mem_set_unit]
  exact Iff.rfl

/-- Every row block is SOME point's. -/
theorem index_onto : ∀ q0 : Fin 50, ∃ t : Fin cfg0.N, win0_3.index t = ![q0.val, 0] :=
  (by decide +kernel : ∀ q0 : Fin 50, ∃ t : Fin grid0.N, win0_3.index t = ![q0.val, 0])

/-- The blocks tile the array: row r lies in the block of point r / 1000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 128 ≤ (i 1).val ∧ (i 1).val < win0_3.index t (1 : Fin 2) * 128 + 128; omega

/-- THE ARRAY after the region: the affine map of the arrays as the region finds them. -/
theorem value (c : Dev nD) :
    (dat0 (F := Ideal) V c).arrAt 3 cfg0.N
      = Gcn.lin (R := 50000) (K := 128) (C := 128) (V c main_arg0) (V c main_arg2) (V c main_v19) :=
  (dat0 (F := Ideal) V c).arrAt_eq_of_cover 3 _ (fun t _ => flushed_eq V c t) cover

end Cert.KernelIdeal.Region0

end
-- ==== Proof.LibColumn.lean ====
/-
  A column broadcast across a rectangle, read at an index.

  An `[a, 1]` array broadcast to `[a, b]` holds, at `(p, c)`, the column's entry at row `p`: the unit axis reads at zero, the
  long axis at the result's own row.  (The library has the companion for a `[1, b]` row; this is the keepdims column.)
-/
import Idealize.ShloMosaic.Lib.Pipeline.Value
import Idealize.ShloMosaic.Lib.ValueIdx

noncomputable section

namespace Cert.LibColumn

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Region1.lean ====
/-
  The first layer's edge scaling: the array the second pallas_call leaves, as one function of the arrays it finds.

  The region's grid has a hundred points; point t works on edges 8000·t … 8000·t + 7999.  Its body multiplies each
  gathered row by that edge's coefficient, the coefficient column broadcast across the row, so what it writes back is its
  block of ONE whole-array function: entry (e, c) is h(e, c) · coef(e, 0).  The blocks tile the array, hence the array
  after the region is that function.
-/
import proofs.«120160_j74345883894179_1_alg».proof.Proof.Gen.KernelIdeal.Frame
import proofs.«120160_j74345883894179_1_alg».proof.Proof.Spec
import proofs.«120160_j74345883894179_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's product at an entry -/

/-- The body's stored value at an entry of its block: the row's entry times the row's coefficient. -/
theorem payload_apply (h : Vec Ideal S8000x128 .f32) (cf : Vec Ideal S8000x1 .f32) (y : S8000x128.Idx) :
    k1_pay1 (F := Ideal) h cf y = h y * cf (ix2 (y 0 : Fin 8000) (0 : Fin 1)) := by
  obtain ⟨p, q, rfl⟩ : ∃ (p : Fin 8000) (q : Fin 128), y = ix2 p q := ⟨y 0, y 1, eq_ix2 y⟩
  unfold k1_pay1
  show shapeCast S8000x128 h _ (ix2 p q) * broadcastTo S8000x128 (shapeCast S8000x1 cf _) _ (ix2 p q) = _
  rw [shapeCast_self, Cert.LibColumn.broadcastTo_a1_ab_apply, shapeCast_self]

/-! ## What a point writes back, and the array after the region -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: every window's row block moves with the point, its column block is zero. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The arrays as the region finds them, at their literal types. -/
abbrev harr (c : Dev nD) : (⟨2, ![800000, 128]⟩ : Shape).Idx → EReal := V c main_v27
abbrev carr (c : Dev nD) : (⟨2, ![800000, 1]⟩ : Shape).Idx → EReal := V c main_v43

/-- The point's blocks, at their literal vector types. -/
abbrev hblk (c : Dev nD) (t : Fin cfg1.N) : Vec Ideal S8000x128 .f32 := iblk1 V c 0 t
abbrev cblk (c : Dev nD) (t : Fin cfg1.N) : Vec Ideal S8000x1 .f32 := iblk1 V c 1 t

/-- WHAT POINT `t` WRITES BACK is block `t` of the scaled rows of the arrays as the region finds them. -/
theorem flushed_eq (c : Dev nD) (t : Fin cfg1.N) :
    (dat1 (F := Ideal) V c).flushed 2 t = ((cfg1.win 2).blk t).view.read (Elt Ideal)
      (Gcn.escale (E := 800000) (C := 128) (harr V c) (carr V c)) := by
  show (cfg1.win 2).cut (grid1.coords t) ((dat1 V c).after 2 t) = _
  rw [after1_2]
  unfold out1_2
  rw [View.canon_unit_zero origin]
  simp only [View.ld_unit_zero (S := S8000x128) origin, View.ld_unit_zero (S := S8000x1) origin]
  obtain ⟨e0, e1, e2, e3, e4, e5⟩ := index_facts t
  funext j
  show k1_pay1 (F := Ideal) (hblk V c t) (cblk V c t) j = _
  rw [payload_apply]
  show harr V c (((cfg1.win 0).blk t).view.emb j) * carr V c (((cfg1.win 1).blk t).view.emb (ix2 (j 0 : Fin 8000) (0 : Fin 1)))
    = harr V c (((cfg1.win 2).blk t).view.emb j) * carr V c (ix2 ((((cfg1.win 2).blk t).view.emb j) 0 : Fin 800000) (0 : Fin 1))
  have hj0 : (j 0).val < 8000 := (j 0).isLt
  have hj1 : (j 1).val < 128 := (j 1).isLt
  have hh : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 128 + 1 * (j 1).val = win1_2.index t (1 : Fin 2) * 128 + 1 * (j 1).val; omega
  have hc : ((cfg1.win 1).blk t).view.emb (ix2 (j 0 : Fin 8000) (0 : Fin 1)) = ix2 ((((cfg1.win 2).blk t).view.emb j) 0 : Fin 800000) (0 : Fin 1) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  rw [hh, hc]
  rfl

/-- An index of the array is in point `t`'s block iff each coordinate is in the block's range on its axis. -/
theorem mem_blk (t : Fin cfg1.N) (i : S800000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v44).slice (win1_2.rect t)).set ↔ _
  rw [View.set_slice_whole, Rect.mem_set_unit]
  exact Iff.rfl

/-- Every row block is SOME point's. -/
theorem index_onto : ∀ q0 : Fin 100, ∃ t : Fin cfg1.N, win1_2.index t = ![q0.val, 0] :=
  (by decide +kernel : ∀ q0 : Fin 100, ∃ t : Fin grid1.N, win1_2.index t = ![q0.val, 0])

/-- The blocks tile the array: edge e lies in the block of point e / 8000. -/
theorem cover (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  obtain ⟨t, ht⟩ := index_onto ⟨(i 0).val / 8000, by omega⟩
  have q0 : win1_2.index t (0 : Fin 2) = (i 0).val / 8000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- THE ARRAY after the region: the scaled rows of the arrays as the region finds them. -/
theorem value (c : Dev nD) :
    (dat1 (F := Ideal) V c).arrAt 2 cfg1.N = Gcn.escale (E := 800000) (C := 128) (V c main_v27) (V c main_v43) :=
  (dat1 (F := Ideal) V c).arrAt_eq_of_cover 2 _ (fun t _ => flushed_eq V c t) cover

end Cert.KernelIdeal.Region1

end
-- ==== Proof.Region2.lean ====
/-
  The first layer's node update: the array the third pallas_call leaves, as one function of the arrays it finds.

  The region's grid has fifty points; point t works on nodes 1000·t … 1000·t + 999.  Its body adds to each node's
  aggregated messages the node's own features scaled by the node's coefficient (a column broadcast across the row) and the
  bias row, and rectifies, so what it writes back is its block of ONE whole-array function: entry (r, c) is
  max((agg(r, c) + h(r, c) · d(r, 0)) + b(0, c), 0).  The blocks tile the array, hence the array after the region is that
  function.
-/
import proofs.«120160_j74345883894179_1_alg».proof.Proof.Gen.KernelIdeal.Frame
import proofs.«120160_j74345883894179_1_alg».proof.Proof.Spec
import proofs.«120160_j74345883894179_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's value at an entry -/

/-- The body's stored value at an entry of its block. -/
theorem payload_apply (h : Vec Ideal S1000x128 .f32) (d : Vec Ideal S1000x1 .f32) (agg : Vec Ideal S1000x128 .f32)
    (b : Vec Ideal S1x128 .f32) (y : S1000x128.Idx) :
    k2_pay1 (F := Ideal) h d agg b y
      = max ((agg y + h y * d (ix2 (y 0 : Fin 1000) (0 : Fin 1))) + b (ix2 (0 : Fin 1) (y 1 : Fin 128))) (Ideal.ofBits .f32 0x00000000#32) := by
  obtain ⟨p, q, rfl⟩ : ∃ (p : Fin 1000) (q : Fin 128), y = ix2 p q := ⟨y 0, y 1, eq_ix2 y⟩
  unfold k2_pay1
  show max ((shapeCast S1000x128 agg _ (ix2 p q)
        + shapeCast S1000x128 h _ (ix2 p q) * broadcastTo S1000x128 (shapeCast S1000x1 d _) _ (ix2 p q))
      + broadcastTo S1000x128 (shapeCast S1x128 b _) _ (ix2 p q)) _ = _
  rw [Cert.LibColumn.broadcastTo_a1_ab_apply, broadcastTo_1b_ab_apply]
  simp only [shapeCast_self]
  rfl

/-! ## What a point writes back, and the array after the region -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the messages, the features, the coefficients and the output
    move together with the point; every other block index is zero. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The arrays as the region finds them, at their literal types. -/
abbrev aarr (c : Dev nD) : (⟨2, ![50000, 128]⟩ : Shape).Idx → EReal := V c main_v47
abbrev harr (c : Dev nD) : (⟨2, ![50000, 128]⟩ : Shape).Idx → EReal := V c main_v20
abbrev darr (c : Dev nD) : (⟨2, ![50000, 1]⟩ : Shape).Idx → EReal := V c main_v17
abbrev barr (c : Dev nD) : (⟨2, ![1, 128]⟩ : Shape).Idx → EReal := V c main_v48

/-- The point's blocks, at their literal vector types. -/
abbrev ablk (c : Dev nD) (t : Fin cfg2.N) : Vec Ideal S1000x128 .f32 := iblk2 V c 0 t
abbrev hblk (c : Dev nD) (t : Fin cfg2.N) : Vec Ideal S1000x128 .f32 := iblk2 V c 1 t
abbrev dblk (c : Dev nD) (t : Fin cfg2.N) : Vec Ideal S1000x1 .f32 := iblk2 V c 2 t
abbrev bblk (c : Dev nD) (t : Fin cfg2.N) : Vec Ideal S1x128 .f32 := iblk2 V c 3 t

set_option maxHeartbeats 1000000 in
/-- WHAT POINT `t` WRITES BACK is block `t` of the node update of the arrays as the region finds them. -/
theorem flushed_eq (c : Dev nD) (t : Fin cfg2.N) :
    (dat2 (F := Ideal) V c).flushed 4 t = ((cfg2.win 4).blk t).view.read (Elt Ideal)
      (Gcn.npost (R := 50000) (C := 128) (aarr V c) (harr V c) (darr V c) (barr V c)) := by
  show (cfg2.win 4).cut (grid2.coords t) ((dat2 V c).after 4 t) = _
  rw [after2_4]
  unfold out2_4
  rw [View.canon_unit_zero origin]
  simp only [View.ld_unit_zero (S := S1000x128) origin, View.ld_unit_zero (S := S1000x1) origin, View.ld_unit_zero (S := S1x128) origin]
  obtain ⟨e0, e1, e2, e3, e4, e5, e6, e7, e8, e9⟩ := index_facts t
  funext j
  show k2_pay1 (F := Ideal) (hblk V c t) (dblk V c t) (ablk V c t) (bblk V c t) j = _
  rw [payload_apply]
  show max ((aarr V c (((cfg2.win 0).blk t).view.emb j)
        + harr V c (((cfg2.win 1).blk t).view.emb j) * darr V c (((cfg2.win 2).blk t).view.emb (ix2 (j 0 : Fin 1000) (0 : Fin 1))))
      + barr V c (((cfg2.win 3).blk t).view.emb (ix2 (0 : Fin 1) (j 1 : Fin 128)))) (Ideal.ofBits .f32 0x00000000#32)
    = max ((aarr V c (((cfg2.win 4).blk t).view.emb j)
        + harr V c (((cfg2.win 4).blk t).view.emb j) * darr V c (ix2 ((((cfg2.win 4).blk t).view.emb j) 0 : Fin 50000) (0 : Fin 1)))
      + barr V c (ix2 (0 : Fin 1) ((((cfg2.win 4).blk t).view.emb j) 1 : Fin 128))) (Ideal.ofBits .f32 0x00000000#32)
  have hj0 : (j 0).val < 1000 := (j 0).isLt
  have hj1 : (j 1).val < 128 := (j 1).isLt
  have ha : ((cfg2.win 0).blk t).view.emb j = ((cfg2.win 4).blk t).view.emb j := by
    funext a; apply Fin.ext
    match a with
    | ⟨0, _⟩ => show win2_0.index t (0 : Fin 2) * 1000 + 1 * (j 0).val = win2_4.index t (0 : Fin 2) * 1000 + 1 * (j 0).val; omega
    | ⟨1, _⟩ => show win2_0.index t (1 : Fin 2) * 128 + 1 * (j 1).val = win2_4.index t (1 : Fin 2) * 128 + 1 * (j 1).val; omega
  have hh : ((cfg2.win 1).blk t).view.emb j = ((cfg2.win 4).blk t).view.emb j := by
    funext a; apply Fin.ext
    match a with
    | ⟨0, _⟩ => show win2_1.index t (0 : Fin 2) * 1000 + 1 * (j 0).val = win2_4.index t (0 : Fin 2) * 1000 + 1 * (j 0).val; omega
    | ⟨1, _⟩ => show win2_1.index t (1 : Fin 2) * 128 + 1 * (j 1).val = win2_4.index t (1 : Fin 2) * 128 + 1 * (j 1).val; omega
  have hd : ((cfg2.win 2).blk t).view.emb (ix2 (j 0 : Fin 1000) (0 : Fin 1)) = ix2 ((((cfg2.win 4).blk t).view.emb j) 0 : Fin 50000) (0 : Fin 1) := by
    funext a; apply Fin.ext
    match a with
    | ⟨0, _⟩ => show win2_2.index t (0 : Fin 2) * 1000 + 1 * (j 0).val = win2_4.index t (0 : Fin 2) * 1000 + 1 * (j 0).val; omega
    | ⟨1, _⟩ => show win2_2.index t (1 : Fin 2) * 1 + 1 * 0 = 0; omega
  have hb : ((cfg2.win 3).blk t).view.emb (ix2 (0 : Fin 1) (j 1 : Fin 128)) = ix2 (0 : Fin 1) ((((cfg2.win 4).blk t).view.emb j) 1 : Fin 128) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega
  rw [ha, hh, hd, hb]
  rfl

/-- An index of the array is in point `t`'s block iff each coordinate is in the block's range on its axis. -/
theorem mem_blk (t : Fin cfg2.N) (i : S50000x128.Idx) :
    i ∈ ((cfg2.win 4).blk t).view.set ↔ ∀ a : Fin 2, win2_4.index t a * S1000x128.size a ≤ (i a).val ∧ (i a).val < win2_4.index t a * S1000x128.size a + S1000x128.size a := by
  show i ∈ ((View.whole main_v49).slice (win2_4.rect t)).set ↔ _
  rw [View.set_slice_whole, Rect.mem_set_unit]
  exact Iff.rfl

/-- Every row block is SOME point's. -/
theorem index_onto : ∀ q0 : Fin 50, ∃ t : Fin cfg2.N, win2_4.index t = ![q0.val, 0] :=
  (by decide +kernel : ∀ q0 : Fin 50, ∃ t : Fin grid2.N, win2_4.index t = ![q0.val, 0])

/-- The blocks tile the array: node r lies in the block of point r / 1000. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := index_onto ⟨(i 0).val / 1000, by omega⟩
  have q0 : win2_4.index t (0 : Fin 2) = (i 0).val / 1000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 1000 ≤ (i 0).val ∧ (i 0).val < win2_4.index t (0 : Fin 2) * 1000 + 1000; omega
  | ⟨1, _⟩ => show win2_4.index t (1 : Fin 2) * 128 ≤ (i 1).val ∧ (i 1).val < win2_4.index t (1 : Fin 2) * 128 + 128; omega

/-- THE ARRAY after the region: the node update of the arrays as the region finds them. -/
theorem value (c : Dev nD) :
    (dat2 (F := Ideal) V c).arrAt 4 cfg2.N
      = Gcn.npost (R := 50000) (C := 128) (V c main_v47) (V c main_v20) (V c main_v17) (V c main_v48) :=
  (dat2 (F := Ideal) V c).arrAt_eq_of_cover 4 _ (fun t _ => flushed_eq V c t) cover

end Cert.KernelIdeal.Region2

end
-- ==== Proof.Region3.lean ====
/-
  The second layer's feature product: the array the fourth pallas_call leaves, as one function of the arrays it finds.

  The region's grid has fifty points; point t works on rows 1000·t … 1000·t + 999.  Its body multiplies the point's block
  of rows by the whole weight matrix and adds the bias row, so what it writes back is its block of ONE whole-array
  function: entry (r, c) is the sum over k of x(r, k) · w(k, c), plus b(0, c).  The blocks tile the array, hence the array
  after the region is that function.
-/
import proofs.«120160_j74345883894179_1_alg».proof.Proof.Gen.KernelIdeal.Frame
import proofs.«120160_j74345883894179_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's product at an entry -/

/-- The left operand's row coordinate is the result's row. -/
theorem lhs_axis0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The left operand's column coordinate is the contraction index. -/
theorem lhs_axis1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right operand's row coordinate is the contraction index. -/
theorem rhs_axis0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- The right operand's column coordinate is the result's column. -/
theorem rhs_axis1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The block product into a zero accumulator, read at (p, q): the plain sum over the contraction index. -/
theorem product_apply {φ₁ φ₂ : FTy} (x : FVec Ideal S1000x128 φ₁) (w : FVec Ideal S128x128 φ₂) (p : Fin 1000) (q : Fin 128) :
    FloatOps.matmul (F := Ideal) dot_S1000x128_S128x128_S1000x128_1_0_0_1_n_n none x w (constant (F := Ideal) S1000x128 .f32 0x00000000#32) (ix2 p q)
      = ∑ k : Fin 128, x (ix2 p k) * w (ix2 k q) := by
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's stored value at an entry of its block: the product's sum plus the bias row's entry. -/
theorem payload_apply (x : Vec Ideal S1000x128 .f32) (w : Vec Ideal S128x128 .f32) (b : Vec Ideal S1x128 .f32) (y : S1000x128.Idx) :
    k3_pay1 (F := Ideal) x w b y
      = (∑ k : Fin 128, x (ix2 (y 0 : Fin 1000) k) * w (ix2 k (y 1 : Fin 128))) + b (ix2 (0 : Fin 1) (y 1 : Fin 128)) := by
  obtain ⟨p, q, rfl⟩ : ∃ (p : Fin 1000) (q : Fin 128), y = ix2 p q := ⟨y 0, y 1, eq_ix2 y⟩
  unfold k3_pay1
  show FloatOps.matmul (F := Ideal) dot_S1000x128_S128x128_S1000x128_1_0_0_1_n_n none _ _ (constant (F := Ideal) S1000x128 .f32 0x00000000#32) (ix2 p q)
      + broadcastTo S1000x128 (shapeCast S1x128 b _) _ (ix2 p q) = _
  rw [product_apply, broadcastTo_1b_ab_apply]
  simp only [shapeCast_self]
  rfl

/-! ## What a point writes back, and the array after the region -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the input and of the output move together with the point,
    every other block index is zero. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The arrays as the region finds them, at their literal types. -/
abbrev xarr (c : Dev nD) : (⟨2, ![50000, 128]⟩ : Shape).Idx → EReal := V c main_v49
abbrev warr (c : Dev nD) : (⟨2, ![128, 128]⟩ : Shape).Idx → EReal := V c main_arg4
abbrev barr (c : Dev nD) : (⟨2, ![1, 128]⟩ : Shape).Idx → EReal := V c main_v51

/-- The point's blocks, at their literal vector types. -/
abbrev xblk (c : Dev nD) (t : Fin cfg3.N) : Vec Ideal S1000x128 .f32 := iblk3 V c 0 t
abbrev wblk (c : Dev nD) (t : Fin cfg3.N) : Vec Ideal S128x128 .f32 := iblk3 V c 1 t
abbrev bblk (c : Dev nD) (t : Fin cfg3.N) : Vec Ideal S1x128 .f32 := iblk3 V c 2 t

/-- WHAT POINT `t` WRITES BACK is block `t` of the affine map of the arrays as the region finds them. -/
theorem flushed_eq (c : Dev nD) (t : Fin cfg3.N) :
    (dat3 (F := Ideal) V c).flushed 3 t = ((cfg3.win 3).blk t).view.read (Elt Ideal)
      (Gcn.lin (R := 50000) (K := 128) (C := 128) (xarr V c) (warr V c) (barr V c)) := by
  show (cfg3.win 3).cut (grid3.coords t) ((dat3 V c).after 3 t) = _
  rw [after3_3]
  unfold out3_3
  rw [View.canon_unit_zero origin]
  simp only [View.ld_unit_zero (S := S1000x128) origin, View.ld_unit_zero (S := S128x128) origin, View.ld_unit_zero (S := S1x128) origin]
  obtain ⟨e0, e1, e2, e3, e4, e5, e6, e7⟩ := index_facts t
  funext j
  show k3_pay1 (F := Ideal) (xblk V c t) (wblk V c t) (bblk V c t) j = _
  rw [payload_apply]
  show (∑ k : Fin 128, xarr V c (((cfg3.win 0).blk t).view.emb (ix2 (j 0 : Fin 1000) k)) * warr V c (((cfg3.win 1).blk t).view.emb (ix2 k (j 1 : Fin 128))))
      + barr V c (((cfg3.win 2).blk t).view.emb (ix2 (0 : Fin 1) (j 1 : Fin 128)))
    = (∑ k : Fin 128, xarr V c (ix2 ((((cfg3.win 3).blk t).view.emb j) 0 : Fin 50000) k) * warr V c (ix2 k ((((cfg3.win 3).blk t).view.emb j) 1 : Fin 128)))
      + barr V c (ix2 (0 : Fin 1) ((((cfg3.win 3).blk t).view.emb j) 1 : Fin 128))
  have hj0 : (j 0).val < 1000 := (j 0).isLt
  have hj1 : (j 1).val < 128 := (j 1).isLt
  have hx : ∀ k : Fin 128, ((cfg3.win 0).blk t).view.emb (ix2 (j 0 : Fin 1000) k) = ix2 ((((cfg3.win 3).blk t).view.emb j) 0 : Fin 50000) k := by
    intro k; funext a; apply Fin.ext
    match a with
    | ⟨0, _⟩ => show win3_0.index t (0 : Fin 2) * 1000 + 1 * (j 0).val = win3_3.index t (0 : Fin 2) * 1000 + 1 * (j 0).val; omega
    | ⟨1, _⟩ => show win3_0.index t (1 : Fin 2) * 128 + 1 * k.val = k.val; have := k.isLt; omega
  have hw : ∀ k : Fin 128, ((cfg3.win 1).blk t).view.emb (ix2 k (j 1 : Fin 128)) = ix2 k ((((cfg3.win 3).blk t).view.emb j) 1 : Fin 128) := by
    intro k; funext a; apply Fin.ext
    match a with
    | ⟨0, _⟩ => show win3_1.index t (0 : Fin 2) * 128 + 1 * k.val = k.val; have := k.isLt; omega
    | ⟨1, _⟩ => show win3_1.index t (1 : Fin 2) * 128 + 1 * (j 1).val = win3_3.index t (1 : Fin 2) * 128 + 1 * (j 1).val; omega
  have hb : ((cfg3.win 2).blk t).view.emb (ix2 (0 : Fin 1) (j 1 : Fin 128)) = ix2 (0 : Fin 1) ((((cfg3.win 3).blk t).view.emb j) 1 : Fin 128) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  rw [hb]
  exact congrArg (· + _) (Finset.sum_congr rfl fun k _ => by rw [hx k, hw k]; rfl)

/-- An index of the array is in point `t`'s block iff each coordinate is in the block's range on its axis. -/
theorem mem_blk (t : Fin cfg3.N) (i : S50000x128.Idx) :
    i ∈ ((cfg3.win 3).blk t).view.set ↔ ∀ a : Fin 2, win3_3.index t a * S1000x128.size a ≤ (i a).val ∧ (i a).val < win3_3.index t a * S1000x128.size a + S1000x128.size a := by
  show i ∈ ((View.whole main_v52).slice (win3_3.rect t)).set ↔ _
  rw [View.set_slice_whole, Rect.mem_set_unit]
  exact Iff.rfl

/-- Every row block is SOME point's. -/
theorem index_onto : ∀ q0 : Fin 50, ∃ t : Fin cfg3.N, win3_3.index t = ![q0.val, 0] :=
  (by decide +kernel : ∀ q0 : Fin 50, ∃ t : Fin grid3.N, win3_3.index t = ![q0.val, 0])

/-- The blocks tile the array: row r lies in the block of point r / 1000. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := index_onto ⟨(i 0).val / 1000, by omega⟩
  have q0 : win3_3.index t (0 : Fin 2) = (i 0).val / 1000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 128 ≤ (i 1).val ∧ (i 1).val < win3_3.index t (1 : Fin 2) * 128 + 128; omega

/-- THE ARRAY after the region: the affine map of the arrays as the region finds them. -/
theorem value (c : Dev nD) :
    (dat3 (F := Ideal) V c).arrAt 3 cfg3.N
      = Gcn.lin (R := 50000) (K := 128) (C := 128) (V c main_v49) (V c main_arg4) (V c main_v51) :=
  (dat3 (F := Ideal) V c).arrAt_eq_of_cover 3 _ (fun t _ => flushed_eq V c t) cover

end Cert.KernelIdeal.Region3

end
-- ==== Proof.Region4.lean ====
/-
  The second layer's edge scaling: the array the fifth pallas_call leaves, as one function of the arrays it finds.

  The region's grid has a hundred points; point t works on edges 8000·t … 8000·t + 7999.  Its body multiplies each
  gathered row by that edge's coefficient, the coefficient column broadcast across the row, so what it writes back is its
  block of ONE whole-array function: entry (e, c) is h(e, c) · coef(e, 0).  The blocks tile the array, hence the array
  after the region is that function.
-/
import proofs.«120160_j74345883894179_1_alg».proof.Proof.Gen.KernelIdeal.Frame
import proofs.«120160_j74345883894179_1_alg».proof.Proof.Spec
import proofs.«120160_j74345883894179_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's product at an entry -/

/-- The body's stored value at an entry of its block: the row's entry times the row's coefficient. -/
theorem payload_apply (h : Vec Ideal S8000x128 .f32) (cf : Vec Ideal S8000x1 .f32) (y : S8000x128.Idx) :
    k4_pay1 (F := Ideal) h cf y = h y * cf (ix2 (y 0 : Fin 8000) (0 : Fin 1)) := by
  obtain ⟨p, q, rfl⟩ : ∃ (p : Fin 8000) (q : Fin 128), y = ix2 p q := ⟨y 0, y 1, eq_ix2 y⟩
  unfold k4_pay1
  show shapeCast S8000x128 h _ (ix2 p q) * broadcastTo S8000x128 (shapeCast S8000x1 cf _) _ (ix2 p q) = _
  rw [shapeCast_self, Cert.LibColumn.broadcastTo_a1_ab_apply, shapeCast_self]

/-! ## What a point writes back, and the array after the region -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: every window's row block moves with the point, its column block is zero. -/
theorem index_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The arrays as the region finds them, at their literal types. -/
abbrev harr (c : Dev nD) : (⟨2, ![800000, 128]⟩ : Shape).Idx → EReal := V c main_v59
abbrev carr (c : Dev nD) : (⟨2, ![800000, 1]⟩ : Shape).Idx → EReal := V c main_v75

/-- The point's blocks, at their literal vector types. -/
abbrev hblk (c : Dev nD) (t : Fin cfg4.N) : Vec Ideal S8000x128 .f32 := iblk4 V c 0 t
abbrev cblk (c : Dev nD) (t : Fin cfg4.N) : Vec Ideal S8000x1 .f32 := iblk4 V c 1 t

/-- WHAT POINT `t` WRITES BACK is block `t` of the scaled rows of the arrays as the region finds them. -/
theorem flushed_eq (c : Dev nD) (t : Fin cfg4.N) :
    (dat4 (F := Ideal) V c).flushed 2 t = ((cfg4.win 2).blk t).view.read (Elt Ideal)
      (Gcn.escale (E := 800000) (C := 128) (harr V c) (carr V c)) := by
  show (cfg4.win 2).cut (grid4.coords t) ((dat4 V c).after 2 t) = _
  rw [after4_2]
  unfold out4_2
  rw [View.canon_unit_zero origin]
  simp only [View.ld_unit_zero (S := S8000x128) origin, View.ld_unit_zero (S := S8000x1) origin]
  obtain ⟨e0, e1, e2, e3, e4, e5⟩ := index_facts t
  funext j
  show k4_pay1 (F := Ideal) (hblk V c t) (cblk V c t) j = _
  rw [payload_apply]
  show harr V c (((cfg4.win 0).blk t).view.emb j) * carr V c (((cfg4.win 1).blk t).view.emb (ix2 (j 0 : Fin 8000) (0 : Fin 1)))
    = harr V c (((cfg4.win 2).blk t).view.emb j) * carr V c (ix2 ((((cfg4.win 2).blk t).view.emb j) 0 : Fin 800000) (0 : Fin 1))
  have hj0 : (j 0).val < 8000 := (j 0).isLt
  have hj1 : (j 1).val < 128 := (j 1).isLt
  have hh : ((cfg4.win 0).blk t).view.emb j = ((cfg4.win 2).blk t).view.emb j := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 128 + 1 * (j 1).val = win4_2.index t (1 : Fin 2) * 128 + 1 * (j 1).val; omega
  have hc : ((cfg4.win 1).blk t).view.emb (ix2 (j 0 : Fin 8000) (0 : Fin 1)) = ix2 ((((cfg4.win 2).blk t).view.emb j) 0 : Fin 800000) (0 : Fin 1) := by
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 1 + 1 * 0 = 0; omega
  rw [hh, hc]
  rfl

/-- An index of the array is in point `t`'s block iff each coordinate is in the block's range on its axis. -/
theorem mem_blk (t : Fin cfg4.N) (i : S800000x128.Idx) :
    i ∈ ((cfg4.win 2).blk t).view.set ↔ ∀ a : Fin 2, win4_2.index t a * S8000x128.size a ≤ (i a).val ∧ (i a).val < win4_2.index t a * S8000x128.size a + S8000x128.size a := by
  show i ∈ ((View.whole main_v76).slice (win4_2.rect t)).set ↔ _
  rw [View.set_slice_whole, Rect.mem_set_unit]
  exact Iff.rfl

/-- Every row block is SOME point's. -/
theorem index_onto : ∀ q0 : Fin 100, ∃ t : Fin cfg4.N, win4_2.index t = ![q0.val, 0] :=
  (by decide +kernel : ∀ q0 : Fin 100, ∃ t : Fin grid4.N, win4_2.index t = ![q0.val, 0])

/-- The blocks tile the array: edge e lies in the block of point e / 8000. -/
theorem cover (i : S800000x128.Idx) :
    ∃ t : Fin cfg4.N, (cfg4.win 2).flush t = true ∧ i ∈ ((cfg4.win 2).blk t).view.set := by
  have hi0 : (i 0).val < 800000 := (i 0).isLt
  have hi1 : (i 1).val < 128 := (i 1).isLt
  obtain ⟨t, ht⟩ := index_onto ⟨(i 0).val / 8000, by omega⟩
  have q0 : win4_2.index t (0 : Fin 2) = (i 0).val / 8000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 128 ≤ (i 1).val ∧ (i 1).val < win4_2.index t (1 : Fin 2) * 128 + 128; omega

/-- THE ARRAY after the region: the scaled rows of the arrays as the region finds them. -/
theorem value (c : Dev nD) :
    (dat4 (F := Ideal) V c).arrAt 2 cfg4.N = Gcn.escale (E := 800000) (C := 128) (V c main_v59) (V c main_v75) :=
  (dat4 (F := Ideal) V c).arrAt_eq_of_cover 2 _ (fun t _ => flushed_eq V c t) cover

end Cert.KernelIdeal.Region4

end
-- ==== Proof.Region5.lean ====
/-
  The second layer's node update: the array the sixth pallas_call leaves, as one function of the arrays it finds.

  The region's grid has fifty points; point t works on nodes 1000·t … 1000·t + 999.  Its body adds to each node's
  aggregated messages the node's own features scaled by the node's coefficient (a column broadcast across the row) and the
  bias row, and rectifies, so what it writes back is its block of ONE whole-array function: entry (r, c) is
  max((agg(r, c) + h(r, c) · d(r, 0)) + b(0, c), 0).  The blocks tile the array, hence the array after the region is that
  function.
-/
import proofs.«120160_j74345883894179_1_alg».proof.Proof.Gen.KernelIdeal.Frame
import proofs.«120160_j74345883894179_1_alg».proof.Proof.Spec
import proofs.«120160_j74345883894179_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's value at an entry -/

/-- The body's stored value at an entry of its block. -/
theorem payload_apply (h : Vec Ideal S1000x128 .f32) (d : Vec Ideal S1000x1 .f32) (agg : Vec Ideal S1000x128 .f32)
    (b : Vec Ideal S1x128 .f32) (y : S1000x128.Idx) :
    k5_pay1 (F := Ideal) h d agg b y
      = max ((agg y + h y * d (ix2 (y 0 : Fin 1000) (0 : Fin 1))) + b (ix2 (0 : Fin 1) (y 1 : Fin 128))) (Ideal.ofBits .f32 0x00000000#32) := by
  obtain ⟨p, q, rfl⟩ : ∃ (p : Fin 1000) (q : Fin 128), y = ix2 p q := ⟨y 0, y 1, eq_ix2 y⟩
  unfold k5_pay1
  show max ((shapeCast S1000x128 agg _ (ix2 p q)
        + shapeCast S1000x128 h _ (ix2 p q) * broadcastTo S1000x128 (shapeCast S1000x1 d _) _ (ix2 p q))
      + broadcastTo S1000x128 (shapeCast S1x128 b _) _ (ix2 p q)) _ = _
  rw [Cert.LibColumn.broadcastTo_a1_ab_apply, broadcastTo_1b_ab_apply]
  simp only [shapeCast_self]
  rfl

/-! ## What a point writes back, and the array after the region -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the messages, the features, the coefficients and the output
    move together with the point; every other block index is zero. -/
theorem index_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The arrays as the region finds them, at their literal types. -/
abbrev aarr (c : Dev nD) : (⟨2, ![50000, 128]⟩ : Shape).Idx → EReal := V c main_v79
abbrev harr (c : Dev nD) : (⟨2, ![50000, 128]⟩ : Shape).Idx → EReal := V c main_v52
abbrev darr (c : Dev nD) : (⟨2, ![50000, 1]⟩ : Shape).Idx → EReal := V c main_v17
abbrev barr (c : Dev nD) : (⟨2, ![1, 128]⟩ : Shape).Idx → EReal := V c main_v80

/-- The point's blocks, at their literal vector types. -/
abbrev ablk (c : Dev nD) (t : Fin cfg5.N) : Vec Ideal S1000x128 .f32 := iblk5 V c 0 t
abbrev hblk (c : Dev nD) (t : Fin cfg5.N) : Vec Ideal S1000x128 .f32 := iblk5 V c 1 t
abbrev dblk (c : Dev nD) (t : Fin cfg5.N) : Vec Ideal S1000x1 .f32 := iblk5 V c 2 t
abbrev bblk (c : Dev nD) (t : Fin cfg5.N) : Vec Ideal S1x128 .f32 := iblk5 V c 3 t

set_option maxHeartbeats 1000000 in
/-- WHAT POINT `t` WRITES BACK is block `t` of the node update of the arrays as the region finds them. -/
theorem flushed_eq (c : Dev nD) (t : Fin cfg5.N) :
    (dat5 (F := Ideal) V c).flushed 4 t = ((cfg5.win 4).blk t).view.read (Elt Ideal)
      (Gcn.npost (R := 50000) (C := 128) (aarr V c) (harr V c) (darr V c) (barr V c)) := by
  show (cfg5.win 4).cut (grid5.coords t) ((dat5 V c).after 4 t) = _
  rw [after5_4]
  unfold out5_4
  rw [View.canon_unit_zero origin]
  simp only [View.ld_unit_zero (S := S1000x128) origin, View.ld_unit_zero (S := S1000x1) origin, View.ld_unit_zero (S := S1x128) origin]
  obtain ⟨e0, e1, e2, e3, e4, e5, e6, e7, e8, e9⟩ := index_facts t
  funext j
  show k5_pay1 (F := Ideal) (hblk V c t) (dblk V c t) (ablk V c t) (bblk V c t) j = _
  rw [payload_apply]
  show max ((aarr V c (((cfg5.win 0).blk t).view.emb j)
        + harr V c (((cfg5.win 1).blk t).view.emb j) * darr V c (((cfg5.win 2).blk t).view.emb (ix2 (j 0 : Fin 1000) (0 : Fin 1))))
      + barr V c (((cfg5.win 3).blk t).view.emb (ix2 (0 : Fin 1) (j 1 : Fin 128)))) (Ideal.ofBits .f32 0x00000000#32)
    = max ((aarr V c (((cfg5.win 4).blk t).view.emb j)
        + harr V c (((cfg5.win 4).blk t).view.emb j) * darr V c (ix2 ((((cfg5.win 4).blk t).view.emb j) 0 : Fin 50000) (0 : Fin 1)))
      + barr V c (ix2 (0 : Fin 1) ((((cfg5.win 4).blk t).view.emb j) 1 : Fin 128))) (Ideal.ofBits .f32 0x00000000#32)
  have hj0 : (j 0).val < 1000 := (j 0).isLt
  have hj1 : (j 1).val < 128 := (j 1).isLt
  have ha : ((cfg5.win 0).blk t).view.emb j = ((cfg5.win 4).blk t).view.emb j := by
    funext a; apply Fin.ext
    match a with
    | ⟨0, _⟩ => show win5_0.index t (0 : Fin 2) * 1000 + 1 * (j 0).val = win5_4.index t (0 : Fin 2) * 1000 + 1 * (j 0).val; omega
    | ⟨1, _⟩ => show win5_0.index t (1 : Fin 2) * 128 + 1 * (j 1).val = win5_4.index t (1 : Fin 2) * 128 + 1 * (j 1).val; omega
  have hh : ((cfg5.win 1).blk t).view.emb j = ((cfg5.win 4).blk t).view.emb j := by
    funext a; apply Fin.ext
    match a with
    | ⟨0, _⟩ => show win5_1.index t (0 : Fin 2) * 1000 + 1 * (j 0).val = win5_4.index t (0 : Fin 2) * 1000 + 1 * (j 0).val; omega
    | ⟨1, _⟩ => show win5_1.index t (1 : Fin 2) * 128 + 1 * (j 1).val = win5_4.index t (1 : Fin 2) * 128 + 1 * (j 1).val; omega
  have hd : ((cfg5.win 2).blk t).view.emb (ix2 (j 0 : Fin 1000) (0 : Fin 1)) = ix2 ((((cfg5.win 4).blk t).view.emb j) 0 : Fin 50000) (0 : Fin 1) := by
    funext a; apply Fin.ext
    match a with
    | ⟨0, _⟩ => show win5_2.index t (0 : Fin 2) * 1000 + 1 * (j 0).val = win5_4.index t (0 : Fin 2) * 1000 + 1 * (j 0).val; omega
    | ⟨1, _⟩ => show win5_2.index t (1 : Fin 2) * 1 + 1 * 0 = 0; omega
  have hb : ((cfg5.win 3).blk t).view.emb (ix2 (0 : Fin 1) (j 1 : Fin 128)) = ix2 (0 : Fin 1) ((((cfg5.win 4).blk t).view.emb j) 1 : Fin 128) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_4.index t (1 : Fin 2) * 128 + 1 * (j 1).val; omega
  rw [ha, hh, hd, hb]
  rfl

/-- An index of the array is in point `t`'s block iff each coordinate is in the block's range on its axis. -/
theorem mem_blk (t : Fin cfg5.N) (i : S50000x128.Idx) :
    i ∈ ((cfg5.win 4).blk t).view.set ↔ ∀ a : Fin 2, win5_4.index t a * S1000x128.size a ≤ (i a).val ∧ (i a).val < win5_4.index t a * S1000x128.size a + S1000x128.size a := by
  show i ∈ ((View.whole main_v81).slice (win5_4.rect t)).set ↔ _
  rw [View.set_slice_whole, Rect.mem_set_unit]
  exact Iff.rfl

/-- Every row block is SOME point's. -/
theorem index_onto : ∀ q0 : Fin 50, ∃ t : Fin cfg5.N, win5_4.index t = ![q0.val, 0] :=
  (by decide +kernel : ∀ q0 : Fin 50, ∃ t : Fin grid5.N, win5_4.index t = ![q0.val, 0])

/-- The blocks tile the array: node r lies in the block of point r / 1000. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := index_onto ⟨(i 0).val / 1000, by omega⟩
  have q0 : win5_4.index t (0 : Fin 2) = (i 0).val / 1000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 1000 ≤ (i 0).val ∧ (i 0).val < win5_4.index t (0 : Fin 2) * 1000 + 1000; omega
  | ⟨1, _⟩ => show win5_4.index t (1 : Fin 2) * 128 ≤ (i 1).val ∧ (i 1).val < win5_4.index t (1 : Fin 2) * 128 + 128; omega

/-- THE ARRAY after the region: the node update of the arrays as the region finds them. -/
theorem value (c : Dev nD) :
    (dat5 (F := Ideal) V c).arrAt 4 cfg5.N
      = Gcn.npost (R := 50000) (C := 128) (V c main_v79) (V c main_v52) (V c main_v17) (V c main_v80) :=
  (dat5 (F := Ideal) V c).arrAt_eq_of_cover 4 _ (fun t _ => flushed_eq V c t) cover

end Cert.KernelIdeal.Region5

end
-- ==== Proof.Region6.lean ====
/-
  The classifier: the array the last pallas_call leaves, as one function of the arrays it finds.

  The region's grid has fifty points; point t works on rows 1000·t … 1000·t + 999.  Its body multiplies the point's block
  of rows by the whole weight matrix and adds the bias row, so what it writes back is its block of ONE whole-array
  function: entry (r, c) is the sum over k of x(r, k) · w(k, c), plus b(0, c).  The blocks tile the array, hence the array
  after the region is that function.
-/
import proofs.«120160_j74345883894179_1_alg».proof.Proof.Gen.KernelIdeal.Frame
import proofs.«120160_j74345883894179_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's product at an entry -/

/-- The left operand's row coordinate is the result's row. -/
theorem lhs_axis0 (i : S1000x40.Idx) (q : dot_S1000x128_S128x40_S1000x40_1_0_0_1_n_n.contr.Idx) :
    (dot_S1000x128_S128x40_S1000x40_1_0_0_1_n_n.lhsIdx i q 0).val = (i 0).val := by
  unfold DotDims.lhsIdx
  rw [dif_neg (show ¬(0 : Fin S1000x128.rank) ∈ dot_S1000x128_S128x40_S1000x40_1_0_0_1_n_n.lhsBatch by decide), dif_pos (show (0 : Fin S1000x128.rank) ∈ dot_S1000x128_S128x40_S1000x40_1_0_0_1_n_n.lhsNonContracting by decide)]
  rfl
/-- The left operand's column coordinate is the contraction index. -/
theorem lhs_axis1 (i : S1000x40.Idx) (q : dot_S1000x128_S128x40_S1000x40_1_0_0_1_n_n.contr.Idx) :
    (dot_S1000x128_S128x40_S1000x40_1_0_0_1_n_n.lhsIdx i q 1).val = (q ⟨0, by decide⟩).val :=
  dot_S1000x128_S128x40_S1000x40_1_0_0_1_n_n.lhsIdx_val_of_single rfl i q
/-- The right operand's row coordinate is the contraction index. -/
theorem rhs_axis0 (i : S1000x40.Idx) (q : dot_S1000x128_S128x40_S1000x40_1_0_0_1_n_n.contr.Idx) :
    (dot_S1000x128_S128x40_S1000x40_1_0_0_1_n_n.rhsIdx i q 0).val = (q ⟨0, by decide⟩).val :=
  dot_S1000x128_S128x40_S1000x40_1_0_0_1_n_n.rhsIdx_val_of_single rfl i q
/-- The right operand's column coordinate is the result's column. -/
theorem rhs_axis1 (i : S1000x40.Idx) (q : dot_S1000x128_S128x40_S1000x40_1_0_0_1_n_n.contr.Idx) :
    (dot_S1000x128_S128x40_S1000x40_1_0_0_1_n_n.rhsIdx i q 1).val = (i 1).val := by
  unfold DotDims.rhsIdx
  rw [dif_neg (show ¬(1 : Fin S128x40.rank) ∈ dot_S1000x128_S128x40_S1000x40_1_0_0_1_n_n.rhsBatch by decide), dif_pos (show (1 : Fin S128x40.rank) ∈ dot_S1000x128_S128x40_S1000x40_1_0_0_1_n_n.rhsNonContracting by decide)]
  rfl

/-- The block product into a zero accumulator, read at (p, q): the plain sum over the contraction index. -/
theorem product_apply {φ₁ φ₂ : FTy} (x : FVec Ideal S1000x128 φ₁) (w : FVec Ideal S128x40 φ₂) (p : Fin 1000) (q : Fin 40) :
    FloatOps.matmul (F := Ideal) dot_S1000x128_S128x40_S1000x40_1_0_0_1_n_n none x w (constant (F := Ideal) S1000x40 .f32 0x00000000#32) (ix2 p q)
      = ∑ k : Fin 128, x (ix2 p k) * w (ix2 k q) := by
  rw [Ideal.matmul_constant_zero_apply, ← Equiv.sum_comp (contrEquiv1 dot_S1000x128_S128x40_S1000x40_1_0_0_1_n_n 128 rfl rfl).symm]
  refine Finset.sum_congr rfl fun k _ => ?_
  have hk := contrEquiv1_symm_val dot_S1000x128_S128x40_S1000x40_1_0_0_1_n_n 128 rfl rfl k
  have el : dot_S1000x128_S128x40_S1000x40_1_0_0_1_n_n.lhsIdx (ix2 p q) ((contrEquiv1 dot_S1000x128_S128x40_S1000x40_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1000x128_S128x40_S1000x40_1_0_0_1_n_n.rhsIdx (ix2 p q) ((contrEquiv1 dot_S1000x128_S128x40_S1000x40_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's stored value at an entry of its block: the product's sum plus the bias row's entry. -/
theorem payload_apply (x : Vec Ideal S1000x128 .f32) (w : Vec Ideal S128x40 .f32) (b : Vec Ideal S1x40 .f32) (y : S1000x40.Idx) :
    k6_pay1 (F := Ideal) x w b y
      = (∑ k : Fin 128, x (ix2 (y 0 : Fin 1000) k) * w (ix2 k (y 1 : Fin 40))) + b (ix2 (0 : Fin 1) (y 1 : Fin 40)) := by
  obtain ⟨p, q, rfl⟩ : ∃ (p : Fin 1000) (q : Fin 40), y = ix2 p q := ⟨y 0, y 1, eq_ix2 y⟩
  unfold k6_pay1
  show FloatOps.matmul (F := Ideal) dot_S1000x128_S128x40_S1000x40_1_0_0_1_n_n none _ _ (constant (F := Ideal) S1000x40 .f32 0x00000000#32) (ix2 p q)
      + broadcastTo S1000x40 (shapeCast S1x40 b _) _ (ix2 p q) = _
  rw [product_apply, broadcastTo_1b_ab_apply]
  simp only [shapeCast_self]
  rfl

/-! ## What a point writes back, and the array after the region -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks of the input and of the output move together with the point,
    every other block index is zero. -/
theorem index_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The arrays as the region finds them, at their literal types. -/
abbrev xarr (c : Dev nD) : (⟨2, ![50000, 128]⟩ : Shape).Idx → EReal := V c main_v81
abbrev warr (c : Dev nD) : (⟨2, ![128, 40]⟩ : Shape).Idx → EReal := V c main_arg6
abbrev barr (c : Dev nD) : (⟨2, ![1, 40]⟩ : Shape).Idx → EReal := V c main_v82

/-- The point's blocks, at their literal vector types. -/
abbrev xblk (c : Dev nD) (t : Fin cfg6.N) : Vec Ideal S1000x128 .f32 := iblk6 V c 0 t
abbrev wblk (c : Dev nD) (t : Fin cfg6.N) : Vec Ideal S128x40 .f32 := iblk6 V c 1 t
abbrev bblk (c : Dev nD) (t : Fin cfg6.N) : Vec Ideal S1x40 .f32 := iblk6 V c 2 t

/-- WHAT POINT `t` WRITES BACK is block `t` of the affine map of the arrays as the region finds them. -/
theorem flushed_eq (c : Dev nD) (t : Fin cfg6.N) :
    (dat6 (F := Ideal) V c).flushed 3 t = ((cfg6.win 3).blk t).view.read (Elt Ideal)
      (Gcn.lin (R := 50000) (K := 128) (C := 40) (xarr V c) (warr V c) (barr V c)) := by
  show (cfg6.win 3).cut (grid6.coords t) ((dat6 V c).after 3 t) = _
  rw [after6_3]
  unfold out6_3
  rw [View.canon_unit_zero origin]
  simp only [View.ld_unit_zero (S := S1000x128) origin, View.ld_unit_zero (S := S128x40) origin, View.ld_unit_zero (S := S1x40) origin]
  obtain ⟨e0, e1, e2, e3, e4, e5, e6, e7⟩ := index_facts t
  funext j
  show k6_pay1 (F := Ideal) (xblk V c t) (wblk V c t) (bblk V c t) j = _
  rw [payload_apply]
  show (∑ k : Fin 128, xarr V c (((cfg6.win 0).blk t).view.emb (ix2 (j 0 : Fin 1000) k)) * warr V c (((cfg6.win 1).blk t).view.emb (ix2 k (j 1 : Fin 40))))
      + barr V c (((cfg6.win 2).blk t).view.emb (ix2 (0 : Fin 1) (j 1 : Fin 40)))
    = (∑ k : Fin 128, xarr V c (ix2 ((((cfg6.win 3).blk t).view.emb j) 0 : Fin 50000) k) * warr V c (ix2 k ((((cfg6.win 3).blk t).view.emb j) 1 : Fin 40)))
      + barr V c (ix2 (0 : Fin 1) ((((cfg6.win 3).blk t).view.emb j) 1 : Fin 40))
  have hj0 : (j 0).val < 1000 := (j 0).isLt
  have hj1 : (j 1).val < 40 := (j 1).isLt
  have hx : ∀ k : Fin 128, ((cfg6.win 0).blk t).view.emb (ix2 (j 0 : Fin 1000) k) = ix2 ((((cfg6.win 3).blk t).view.emb j) 0 : Fin 50000) k := by
    intro k; funext a; apply Fin.ext
    match a with
    | ⟨0, _⟩ => show win6_0.index t (0 : Fin 2) * 1000 + 1 * (j 0).val = win6_3.index t (0 : Fin 2) * 1000 + 1 * (j 0).val; omega
    | ⟨1, _⟩ => show win6_0.index t (1 : Fin 2) * 128 + 1 * k.val = k.val; have := k.isLt; omega
  have hw : ∀ k : Fin 128, ((cfg6.win 1).blk t).view.emb (ix2 k (j 1 : Fin 40)) = ix2 k ((((cfg6.win 3).blk t).view.emb j) 1 : Fin 40) := by
    intro k; funext a; apply Fin.ext
    match a with
    | ⟨0, _⟩ => show win6_1.index t (0 : Fin 2) * 128 + 1 * k.val = k.val; have := k.isLt; omega
    | ⟨1, _⟩ => show win6_1.index t (1 : Fin 2) * 40 + 1 * (j 1).val = win6_3.index t (1 : Fin 2) * 40 + 1 * (j 1).val; omega
  have hb : ((cfg6.win 2).blk t).view.emb (ix2 (0 : Fin 1) (j 1 : Fin 40)) = ix2 (0 : Fin 1) ((((cfg6.win 3).blk t).view.emb j) 1 : Fin 40) := by
    funext a; apply Fin.ext
    match a with
    | ⟨0, _⟩ => show win6_2.index t (0 : Fin 2) * 1 + 1 * 0 = 0; omega
    | ⟨1, _⟩ => show win6_2.index t (1 : Fin 2) * 40 + 1 * (j 1).val = win6_3.index t (1 : Fin 2) * 40 + 1 * (j 1).val; omega
  rw [hb]
  exact congrArg (· + _) (Finset.sum_congr rfl fun k _ => by rw [hx k, hw k]; rfl)

/-- An index of the array is in point `t`'s block iff each coordinate is in the block's range on its axis. -/
theorem mem_blk (t : Fin cfg6.N) (i : S50000x40.Idx) :
    i ∈ ((cfg6.win 3).blk t).view.set ↔ ∀ a : Fin 2, win6_3.index t a * S1000x40.size a ≤ (i a).val ∧ (i a).val < win6_3.index t a * S1000x40.size a + S1000x40.size a := by
  show i ∈ ((View.whole main_v83).slice (win6_3.rect t)).set ↔ _
  rw [View.set_slice_whole, Rect.mem_set_unit]
  exact Iff.rfl

/-- Every row block is SOME point's. -/
theorem index_onto : ∀ q0 : Fin 50, ∃ t : Fin cfg6.N, win6_3.index t = ![q0.val, 0] :=
  (by decide +kernel : ∀ q0 : Fin 50, ∃ t : Fin grid6.N, win6_3.index t = ![q0.val, 0])

/-- The blocks tile the array: row r lies in the block of point r / 1000. -/
theorem cover (i : S50000x40.Idx) :
    ∃ t : Fin cfg6.N, (cfg6.win 3).flush t = true ∧ i ∈ ((cfg6.win 3).blk t).view.set := by
  have hi0 : (i 0).val < 50000 := (i 0).isLt
  have hi1 : (i 1).val < 40 := (i 1).isLt
  obtain ⟨t, ht⟩ := index_onto ⟨(i 0).val / 1000, by omega⟩
  have q0 : win6_3.index t (0 : Fin 2) = (i 0).val / 1000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 1000 ≤ (i 0).val ∧ (i 0).val < win6_3.index t (0 : Fin 2) * 1000 + 1000; omega
  | ⟨1, _⟩ => show win6_3.index t (1 : Fin 2) * 40 ≤ (i 1).val ∧ (i 1).val < win6_3.index t (1 : Fin 2) * 40 + 40; omega

/-- THE ARRAY after the region: the affine map of the arrays as the region finds them. -/
theorem value (c : Dev nD) :
    (dat6 (F := Ideal) V c).arrAt 3 cfg6.N
      = Gcn.lin (R := 50000) (K := 128) (C := 40) (V c main_v81) (V c main_arg6) (V c main_v82) :=
  (dat6 (F := Ideal) V c).arrAt_eq_of_cover 3 _ (fun t _ => flushed_eq V c t) cover

end Cert.KernelIdeal.Region6

end
-- ==== Proof.Stage.lean ====
/-
  The kernel program's result as one function of its eight arguments, at the extended reals.

  The edge list gives a source and a destination per edge (`src`, `dst`); a negative index is wrapped by the node count and
  laid out as a column (`wrapCol`).  The degree of a node counts the edges that end there, plus one for the self loop, and
  `dinv` is its inverse square root.  An edge's coefficient is the product of `dinv` at its two ends (`edgeCoef`), a node's
  own coefficient the square of its `dinv` (`selfCoef`).  A layer multiplies the features by the weights (`feat`), gathers
  each edge's source row and scales it (`msgs`), adds the rows up at the edges' destinations (`agg`), and rectifies the sum
  of that, the node's own scaled features and the bias (`layer`).  The result is the classifier applied to two layers.
-/
import proofs.«120160_j74345883894179_1_alg».proof.Proof.Gen.KernelIdeal
import proofs.«120160_j74345883894179_1_alg».proof.Proof.Spec

noncomputable section

namespace Cert.KernelIdeal.Stage

open Idealize.ShloMosaic Cert.KernelIdeal Cert.KernelIdeal.Gen

abbrev EdgeList := (⟨S2x800000, .i32⟩ : BufTy).Contents (Elt Ideal)
abbrev EdgeVec := (⟨S800000, .i32⟩ : BufTy).Contents (Elt Ideal)
abbrev EdgeCol := (⟨S800000x1, .i32⟩ : BufTy).Contents (Elt Ideal)
abbrev NodeFeat := (⟨S50000x128, .f32⟩ : BufTy).Contents (Elt Ideal)
abbrev EdgeFeat := (⟨S800000x128, .f32⟩ : BufTy).Contents (Elt Ideal)
abbrev Weights := (⟨S128x128, .f32⟩ : BufTy).Contents (Elt Ideal)
abbrev Bias := (⟨S128, .f32⟩ : BufTy).Contents (Elt Ideal)

/-- The edges' source nodes: row 0 of the edge list. -/
def src (e : EdgeList) : EdgeVec :=
  shapeCast _ (extractStridedSlice S1x800000 ![0, 0] e slices_S2x800000_S1x800000_0_0) shapeCasts_S1x800000_S800000

/-- The edges' destination nodes: row 1 of the edge list. -/
def dst (e : EdgeList) : EdgeVec :=
  shapeCast _ (extractStridedSlice S1x800000 ![1, 0] e slices_S2x800000_S1x800000_1_0) shapeCasts_S1x800000_S800000

/-- An index vector with its negative entries wrapped by the node count, as a column. -/
def wrapCol (v : EdgeVec) : EdgeCol :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The destinations as a column, unwrapped (what the row sums are scattered by). -/
def dstCol (e : EdgeList) : EdgeCol := broadcastInDim S800000x1 ![0] bcast_S800000_S800000x1_0 (dst e)

/-- One over the square root of each node's degree, the self loop counted. -/
def dinv (e : EdgeList) : (⟨S50000, .f32⟩ : BufTy).Contents (Elt Ideal) :=
  Host.rsqrt (F := Ideal) (addf (F := Ideal)
    (Host.scatterAdd (F := Ideal) scatter_S50000_S800000x1_S800000_n_0_0_1
      (broadcastInDim S50000 ![] bcast_S_S50000 (constant (F := Ideal) S_ .f32 0x00000000#32))
      (wrapCol (dst e))
      (broadcastInDim S800000 ![] bcast_S_S800000 (constant (F := Ideal) S_ .f32 0x3F800000#32)))
    (broadcastInDim S50000 ![] bcast_S_S50000 (constant (F := Ideal) S_ .f32 0x3F800000#32)))

/-- A node's own coefficient: `dinv` squared, as a column. -/
def selfCoef (e : EdgeList) : (⟨S50000x1, .f32⟩ : BufTy).Contents (Elt Ideal) :=
  shapeCast _ (mulf (F := Ideal) (φ := .f32) (dinv e) (dinv e)) shapeCasts_S50000_S50000x1

/-- An edge's coefficient: `dinv` at its source times `dinv` at its destination, as a column. -/
def edgeCoef (e : EdgeList) : (⟨S800000x1, .f32⟩ : BufTy).Contents (Elt Ideal) :=
  shapeCast _ (mulf (F := Ideal) (φ := .f32)
    (Host.gather gather_S50000_S800000x1_S800000_n_0_n_n_0_1_1 (dinv e) (wrapCol (src e)))
    (Host.gather gather_S50000_S800000x1_S800000_n_0_n_n_0_1_1 (dinv e) (wrapCol (dst e)))) shapeCasts_S800000_S800000x1

/-- The zero bias row the feature products are computed with. -/
def zeroRow : (⟨S1x128, .f32⟩ : BufTy).Contents (Elt Ideal) :=
  shapeCast _ (broadcastInDim S128 ![] bcast_S_S128 (constant (F := Ideal) S_ .f32 0x00000000#32)) shapeCasts_S128_S1x128

/-- The features times the weights. -/
def feat (x : NodeFeat) (w : Weights) : NodeFeat := Gcn.lin (R := 50000) (K := 128) (C := 128) x w zeroRow

/-- Per edge, the source node's row scaled by the edge's coefficient. -/
def msgs (e : EdgeList) (h : NodeFeat) : EdgeFeat :=
  Gcn.escale (E := 800000) (C := 128)
    (Host.gather gather_S50000x128_S800000x1_S800000x128_1_0_n_n_0_1_1128 h (wrapCol (src e))) (edgeCoef e)

/-- The messages summed at their destinations. -/
def agg (e : EdgeList) (h : NodeFeat) : NodeFeat :=
  Host.scatterAdd (F := Ideal) scatter_S50000x128_S800000x1_S800000x128_1_0_0_1
    (broadcastInDim S50000x128 ![] bcast_S_S50000x128 (constant (F := Ideal) S_ .f32 0x00000000#32)) (dstCol e) (msgs e h)

/-- One layer: messages, self loop and bias, rectified. -/
def layer (e : EdgeList) (x : NodeFeat) (w : Weights) (b : Bias) : NodeFeat :=
  Gcn.npost (R := 50000) (C := 128) (agg e (feat x w)) (feat x w) (selfCoef e) (shapeCast _ b shapeCasts_S128_S1x128)

/-- Two layers, then the classifier. -/
def out (e : EdgeList) (x : NodeFeat) (w1 : Weights) (b1 : Bias) (w2 : Weights) (b2 : Bias)
    (wc : (⟨S128x40, .f32⟩ : BufTy).Contents (Elt Ideal)) (bc : (⟨S40, .f32⟩ : BufTy).Contents (Elt Ideal)) :
    (⟨S50000x40, .f32⟩ : BufTy).Contents (Elt Ideal) :=
  Gcn.lin (R := 50000) (K := 128) (C := 40) (layer e (layer e x w1 b1) w2 b2) wc (shapeCast _ bc shapeCasts_S40_S1x40)

end Cert.KernelIdeal.Stage

end
-- ==== Proof.Walk.lean ====
/-
  The kernel program's result array, read out of the run's boundary contents.

  The run alternates stretches of host operations with seven regions.  At each boundary every live buffer holds one stage
  of the two-layer network as a function of the eight launched arrays: after the first stretch the edge list's two rows,
  the inverse square roots of the degrees and the nodes' own coefficients; after the first region the first feature
  product; then the gathered rows and the edges' coefficients, the scaled messages, their sums at the destinations, and
  the rectified layer; the same again for the second layer; and last the classifier.  Each lemma below names one buffer at
  one boundary, in program order, and the last one is the result array.
-/
import proofs.«120160_j74345883894179_1_alg».proof.Proof.Gen.KernelIdeal.Frame
import proofs.«120160_j74345883894179_1_alg».proof.Proof.Stage
import Idealize.ShloMosaic.Lib.StableHlo.Run

set_option maxRecDepth 16384

noncomputable section

namespace Cert.KernelIdeal.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The buffer contents a region is entered at, per core. -/
abbrev Entry := (c : Dev nD) → (b : Ref sig .tc) → Buf (Elt Ideal) ((c : Thread nD τ).loc b)

variable (m : (ℓ : Loc nD τ sig) → Buf (Elt Ideal) ℓ) (ρ : Dev nD → PrngReg) (c : Dev nD)

/-! ## What a stretch or a region leaves as it found it

A stretch of host operations changes only the buffers its operations write; a region changes only its output array. -/

/-- The buffers the first stretch writes. -/
abbrev wr0 : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_v16, main_v17, main_cst_3, main_v18, main_v19]
theorem wr0_sub : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the first stretch does not write holds after it what it held before. -/
theorem keepH0 (b : Ref sig .tc) (hb : b ∉ wr0) :
    W1 (F := Ideal) m ρ c (Proc.devRef .tc b) = W0 m ρ c (Proc.devRef .tc b) :=
  StableHlo.after_of_writes_sub hostOps0 _ wr0_sub hb

/-- The buffers the second stretch writes. -/
abbrev wr1 : List (Ref sig .tc) := [main_c_4, main_v21, main_v22, main_c_5, main_v23, main_v24, main_v25, main_v26, main_v27, main_c_6, main_v28, main_v29, main_c_7, main_v30, main_v31, main_v32, main_v33, main_v34, main_c_8, main_v35, main_v36, main_c_9, main_v37, main_v38, main_v39, main_v40, main_v41, main_v42, main_v43]
theorem wr1_sub : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the second stretch does not write holds after it what it held before. -/
theorem keepH1 (b : Ref sig .tc) (hb : b ∉ wr1) :
    W3 (F := Ideal) m ρ c (Proc.devRef .tc b) = W2 m ρ c (Proc.devRef .tc b) :=
  StableHlo.after_of_writes_sub hostOps1 _ wr1_sub hb

/-- The buffers the third stretch writes. -/
abbrev wr2 : List (Ref sig .tc) := [main_cst_10, main_v45, main_v46, main_v47, main_v48]
theorem wr2_sub : (hostOps2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the third stretch does not write holds after it what it held before. -/
theorem keepH2 (b : Ref sig .tc) (hb : b ∉ wr2) :
    W5 (F := Ideal) m ρ c (Proc.devRef .tc b) = W4 m ρ c (Proc.devRef .tc b) :=
  StableHlo.after_of_writes_sub hostOps2 _ wr2_sub hb

/-- The buffers the fourth stretch writes. -/
abbrev wr3 : List (Ref sig .tc) := [main_cst_11, main_v50, main_v51]
theorem wr3_sub : (hostOps3 : List (HloOp τ sig (Elt Ideal))).Forall fun op => op.writes ⊆ (wr3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the fourth stretch does not write holds after it what it held before. -/
theorem keepH3 (b : Ref sig .tc) (hb : b ∉ wr3) :
    W7 (F := Ideal) m ρ c (Proc.devRef .tc b) = W6 m ρ c (Proc.devRef .tc b) :=
  StableHlo.after_of_writes_sub hostOps3 _ wr3_sub hb

/-- The buffers the fifth stretch writes. -/
abbrev wr4 : List (Ref sig .tc) := [main_c_12, main_v53, main_v54, main_c_13, main_v55, main_v56, main_v57, main_v58, main_v59, main_c_14, main_v60, main_v61, main_c_15, main_v62, main_v63, main_v64, main_v65, main_v66, main_c_16, main_v67, main_v68, main_c_17, main_v69, main_v70, main_v71, main_v72, main_v73, main_v74, main_v75]
theorem wr4_sub : (hostOps4 : List (HloOp τ sig (Elt Ideal))).Forall fun op => op.writes ⊆ (wr4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the fifth stretch does not write holds after it what it held before. -/
theorem keepH4 (b : Ref sig .tc) (hb : b ∉ wr4) :
    W9 (F := Ideal) m ρ c (Proc.devRef .tc b) = W8 m ρ c (Proc.devRef .tc b) :=
  StableHlo.after_of_writes_sub hostOps4 _ wr4_sub hb

/-- The buffers the sixth stretch writes. -/
abbrev wr5 : List (Ref sig .tc) := [main_cst_18, main_v77, main_v78, main_v79, main_v80]
theorem wr5_sub : (hostOps5 : List (HloOp τ sig (Elt Ideal))).Forall fun op => op.writes ⊆ (wr5.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the sixth stretch does not write holds after it what it held before. -/
theorem keepH5 (b : Ref sig .tc) (hb : b ∉ wr5) :
    W11 (F := Ideal) m ρ c (Proc.devRef .tc b) = W10 m ρ c (Proc.devRef .tc b) :=
  StableHlo.after_of_writes_sub hostOps5 _ wr5_sub hb

/-- The buffers the seventh stretch writes. -/
abbrev wr6 : List (Ref sig .tc) := [main_v82]
theorem wr6_sub : (hostOps6 : List (HloOp τ sig (Elt Ideal))).Forall fun op => op.writes ⊆ (wr6.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer the seventh stretch does not write holds after it what it held before. -/
theorem keepH6 (b : Ref sig .tc) (hb : b ∉ wr6) :
    W13 (F := Ideal) m ρ c (Proc.devRef .tc b) = W12 m ρ c (Proc.devRef .tc b) :=
  StableHlo.after_of_writes_sub hostOps6 _ wr6_sub hb

/-- An input array of the first region holds after it what it held before. -/
theorem keepR0 (w : Fin cfg0.W) (hin : (cfg0.win w).isOut = false) :
    W2 (F := Ideal) m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- An input array of the second region holds after it what it held before. -/
theorem keepR1 (w : Fin cfg1.W) (hin : (cfg1.win w).isOut = false) :
    W4 (F := Ideal) m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- An input array of the third region holds after it what it held before. -/
theorem keepR2 (w : Fin cfg2.W) (hin : (cfg2.win w).isOut = false) :
    W6 (F := Ideal) m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- An input array of the fourth region holds after it what it held before. -/
theorem keepR3 (w : Fin cfg3.W) (hin : (cfg3.win w).isOut = false) :
    W8 (F := Ideal) m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- An input array of the fifth region holds after it what it held before. -/
theorem keepR4 (w : Fin cfg4.W) (hin : (cfg4.win w).isOut = false) :
    W10 (F := Ideal) m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

/-- An input array of the sixth region holds after it what it held before. -/
theorem keepR5 (w : Fin cfg5.W) (hin : (cfg5.win w).isOut = false) :
    W12 (F := Ideal) m ρ c (Proc.devRef .tc (Pipeline.arrRef spec5 w)) = W11 m ρ c (Proc.devRef .tc (Pipeline.arrRef spec5 w)) :=
  (W12_arr m ρ c w).trans (((dat5 (V11 m ρ) c).arrAt_in w hin _).trans (A_eq5 (V11 m ρ) c w))

/-- An input array of the seventh region holds after it what it held before. -/
theorem keepR6 (w : Fin cfg6.W) (hin : (cfg6.win w).isOut = false) :
    W14 (F := Ideal) m ρ c (Proc.devRef .tc (Pipeline.arrRef spec6 w)) = W13 m ρ c (Proc.devRef .tc (Pipeline.arrRef spec6 w)) :=
  (W14_arr m ρ c w).trans (((dat6 (V13 m ρ) c).arrAt_in w hin _).trans (A_eq6 (V13 m ρ) c w))

/-- A buffer neither the first stretch nor the first region touches holds after both what it held before. -/
theorem keepP0 (b : Ref sig .tc) (hw : b ∉ wr0) (hr : ∀ w, Pipeline.arrRef spec0 w ≠ b) :
    W2 (F := Ideal) m ρ c (Proc.devRef .tc b) = W0 m ρ c (Proc.devRef .tc b) :=
  (W2_of_ne m ρ c b hr).trans (keepH0 m ρ c b hw)

/-- A buffer neither the second stretch nor the second region touches holds after both what it held before. -/
theorem keepP1 (b : Ref sig .tc) (hw : b ∉ wr1) (hr : ∀ w, Pipeline.arrRef spec1 w ≠ b) :
    W4 (F := Ideal) m ρ c (Proc.devRef .tc b) = W2 m ρ c (Proc.devRef .tc b) :=
  (W4_of_ne m ρ c b hr).trans (keepH1 m ρ c b hw)

/-- A buffer neither the third stretch nor the third region touches holds after both what it held before. -/
theorem keepP2 (b : Ref sig .tc) (hw : b ∉ wr2) (hr : ∀ w, Pipeline.arrRef spec2 w ≠ b) :
    W6 (F := Ideal) m ρ c (Proc.devRef .tc b) = W4 m ρ c (Proc.devRef .tc b) :=
  (W6_of_ne m ρ c b hr).trans (keepH2 m ρ c b hw)

/-- A buffer neither the fourth stretch nor the fourth region touches holds after both what it held before. -/
theorem keepP3 (b : Ref sig .tc) (hw : b ∉ wr3) (hr : ∀ w, Pipeline.arrRef spec3 w ≠ b) :
    W8 (F := Ideal) m ρ c (Proc.devRef .tc b) = W6 m ρ c (Proc.devRef .tc b) :=
  (W8_of_ne m ρ c b hr).trans (keepH3 m ρ c b hw)

/-- A buffer neither the fifth stretch nor the fifth region touches holds after both what it held before. -/
theorem keepP4 (b : Ref sig .tc) (hw : b ∉ wr4) (hr : ∀ w, Pipeline.arrRef spec4 w ≠ b) :
    W10 (F := Ideal) m ρ c (Proc.devRef .tc b) = W8 m ρ c (Proc.devRef .tc b) :=
  (W10_of_ne m ρ c b hr).trans (keepH4 m ρ c b hw)

/-- A buffer neither the sixth stretch nor the sixth region touches holds after both what it held before. -/
theorem keepP5 (b : Ref sig .tc) (hw : b ∉ wr5) (hr : ∀ w, Pipeline.arrRef spec5 w ≠ b) :
    W12 (F := Ideal) m ρ c (Proc.devRef .tc b) = W10 m ρ c (Proc.devRef .tc b) :=
  (W12_of_ne m ρ c b hr).trans (keepH5 m ρ c b hw)

/-! ## A launched array nothing has touched yet -/

theorem launch2 (b : Ref sig .tc) (hw0 : b ∉ wr0) (hr0 : ∀ w, Pipeline.arrRef spec0 w ≠ b) :
    W2 (F := Ideal) m ρ c (Proc.devRef .tc b) = m ((c : Thread nD τ).loc b) :=
  (keepP0 m ρ c b hw0 hr0).trans rfl

theorem launch4 (b : Ref sig .tc) (hw0 : b ∉ wr0) (hr0 : ∀ w, Pipeline.arrRef spec0 w ≠ b) (hw1 : b ∉ wr1) (hr1 : ∀ w, Pipeline.arrRef spec1 w ≠ b) :
    W4 (F := Ideal) m ρ c (Proc.devRef .tc b) = m ((c : Thread nD τ).loc b) :=
  (keepP1 m ρ c b hw1 hr1).trans (launch2 m ρ c b hw0 hr0)

theorem launch6 (b : Ref sig .tc) (hw0 : b ∉ wr0) (hr0 : ∀ w, Pipeline.arrRef spec0 w ≠ b) (hw1 : b ∉ wr1) (hr1 : ∀ w, Pipeline.arrRef spec1 w ≠ b) (hw2 : b ∉ wr2) (hr2 : ∀ w, Pipeline.arrRef spec2 w ≠ b) :
    W6 (F := Ideal) m ρ c (Proc.devRef .tc b) = m ((c : Thread nD τ).loc b) :=
  (keepP2 m ρ c b hw2 hr2).trans (launch4 m ρ c b hw0 hr0 hw1 hr1)

theorem launch8 (b : Ref sig .tc) (hw0 : b ∉ wr0) (hr0 : ∀ w, Pipeline.arrRef spec0 w ≠ b) (hw1 : b ∉ wr1) (hr1 : ∀ w, Pipeline.arrRef spec1 w ≠ b) (hw2 : b ∉ wr2) (hr2 : ∀ w, Pipeline.arrRef spec2 w ≠ b) (hw3 : b ∉ wr3) (hr3 : ∀ w, Pipeline.arrRef spec3 w ≠ b) :
    W8 (F := Ideal) m ρ c (Proc.devRef .tc b) = m ((c : Thread nD τ).loc b) :=
  (keepP3 m ρ c b hw3 hr3).trans (launch6 m ρ c b hw0 hr0 hw1 hr1 hw2 hr2)

theorem launch10 (b : Ref sig .tc) (hw0 : b ∉ wr0) (hr0 : ∀ w, Pipeline.arrRef spec0 w ≠ b) (hw1 : b ∉ wr1) (hr1 : ∀ w, Pipeline.arrRef spec1 w ≠ b) (hw2 : b ∉ wr2) (hr2 : ∀ w, Pipeline.arrRef spec2 w ≠ b) (hw3 : b ∉ wr3) (hr3 : ∀ w, Pipeline.arrRef spec3 w ≠ b) (hw4 : b ∉ wr4) (hr4 : ∀ w, Pipeline.arrRef spec4 w ≠ b) :
    W10 (F := Ideal) m ρ c (Proc.devRef .tc b) = m ((c : Thread nD τ).loc b) :=
  (keepP4 m ρ c b hw4 hr4).trans (launch8 m ρ c b hw0 hr0 hw1 hr1 hw2 hr2 hw3 hr3)

theorem launch12 (b : Ref sig .tc) (hw0 : b ∉ wr0) (hr0 : ∀ w, Pipeline.arrRef spec0 w ≠ b) (hw1 : b ∉ wr1) (hr1 : ∀ w, Pipeline.arrRef spec1 w ≠ b) (hw2 : b ∉ wr2) (hr2 : ∀ w, Pipeline.arrRef spec2 w ≠ b) (hw3 : b ∉ wr3) (hr3 : ∀ w, Pipeline.arrRef spec3 w ≠ b) (hw4 : b ∉ wr4) (hr4 : ∀ w, Pipeline.arrRef spec4 w ≠ b) (hw5 : b ∉ wr5) (hr5 : ∀ w, Pipeline.arrRef spec5 w ≠ b) :
    W12 (F := Ideal) m ρ c (Proc.devRef .tc b) = m ((c : Thread nD τ).loc b) :=
  (keepP5 m ρ c b hw5 hr5).trans (launch10 m ρ c b hw0 hr0 hw1 hr1 hw2 hr2 hw3 hr3 hw4 hr4)

/-! ## The three stage functions respect equality of their arguments -/

theorem lin_congr {R K C : ℕ} {x x' : (⟨2, ![R, K]⟩ : Shape).Idx → EReal} {w w' : (⟨2, ![K, C]⟩ : Shape).Idx → EReal}
    {b b' : (⟨2, ![1, C]⟩ : Shape).Idx → EReal} (hx : x = x') (hw : w = w') (hb : b = b') :
    Gcn.lin x w b = Gcn.lin x' w' b' := by subst hx hw hb; rfl
theorem escale_congr {E C : ℕ} {h h' : (⟨2, ![E, C]⟩ : Shape).Idx → EReal} {k k' : (⟨2, ![E, 1]⟩ : Shape).Idx → EReal}
    (hh : h = h') (hk : k = k') : Gcn.escale h k = Gcn.escale h' k' := by subst hh hk; rfl
theorem npost_congr {R C : ℕ} {a a' h h' : (⟨2, ![R, C]⟩ : Shape).Idx → EReal} {d d' : (⟨2, ![R, 1]⟩ : Shape).Idx → EReal}
    {b b' : (⟨2, ![1, C]⟩ : Shape).Idx → EReal} (ha : a = a') (hh : h = h') (hd : d = d') (hb : b = b') :
    Gcn.npost a h d b = Gcn.npost a' h' d' b' := by subst ha hh hd hb; rfl

set_option quotPrecheck false in
local notation "aE" => m ((c : Thread nD τ).loc main_arg1)
set_option quotPrecheck false in
local notation "aX" => m ((c : Thread nD τ).loc main_arg0)
set_option quotPrecheck false in
local notation "aW1" => m ((c : Thread nD τ).loc main_arg2)
set_option quotPrecheck false in
local notation "aB1" => m ((c : Thread nD τ).loc main_arg3)
set_option quotPrecheck false in
local notation "aW2" => m ((c : Thread nD τ).loc main_arg4)
set_option quotPrecheck false in
local notation "aB2" => m ((c : Thread nD τ).loc main_arg5)
set_option quotPrecheck false in
local notation "aWc" => m ((c : Thread nD τ).loc main_arg6)
set_option quotPrecheck false in
local notation "aBc" => m ((c : Thread nD τ).loc main_arg7)

/-! ## What the regions leave in their output arrays

Each region's output array as a function of the arrays the region is entered with: the feature product, the scaled rows,
or the rectified sum.  The run below takes these as given. -/

abbrev H0 : Prop := ∀ (V : Entry) (c : Dev nD), (dat0 (F := Ideal) V c).arrAt 3 cfg0.N = Gcn.lin (R := 50000) (K := 128) (C := 128) (V c main_arg0) (V c main_arg2) (V c main_v19)
abbrev H1 : Prop := ∀ (V : Entry) (c : Dev nD), (dat1 (F := Ideal) V c).arrAt 2 cfg1.N = Gcn.escale (E := 800000) (C := 128) (V c main_v27) (V c main_v43)
abbrev H2 : Prop := ∀ (V : Entry) (c : Dev nD), (dat2 (F := Ideal) V c).arrAt 4 cfg2.N = Gcn.npost (R := 50000) (C := 128) (V c main_v47) (V c main_v20) (V c main_v17) (V c main_v48)
abbrev H3 : Prop := ∀ (V : Entry) (c : Dev nD), (dat3 (F := Ideal) V c).arrAt 3 cfg3.N = Gcn.lin (R := 50000) (K := 128) (C := 128) (V c main_v49) (V c main_arg4) (V c main_v51)
abbrev H4 : Prop := ∀ (V : Entry) (c : Dev nD), (dat4 (F := Ideal) V c).arrAt 2 cfg4.N = Gcn.escale (E := 800000) (C := 128) (V c main_v59) (V c main_v75)
abbrev H5 : Prop := ∀ (V : Entry) (c : Dev nD), (dat5 (F := Ideal) V c).arrAt 4 cfg5.N = Gcn.npost (R := 50000) (C := 128) (V c main_v79) (V c main_v52) (V c main_v17) (V c main_v80)
abbrev H6 : Prop := ∀ (V : Entry) (c : Dev nD), (dat6 (F := Ideal) V c).arrAt 3 cfg6.N = Gcn.lin (R := 50000) (K := 128) (C := 40) (V c main_v81) (V c main_arg6) (V c main_v82)

/-! ## After the first stretch: the edge list's rows, the degrees' inverse roots, the nodes' own coefficients -/

theorem W1_arg0 : W1 (F := Ideal) m ρ c (Proc.devRef .tc main_arg0) = aX := (keepH0 m ρ c main_arg0 (by decide)).trans rfl
theorem W1_arg2 : W1 (F := Ideal) m ρ c (Proc.devRef .tc main_arg2) = aW1 := (keepH0 m ρ c main_arg2 (by decide)).trans rfl

/-- The edges' sources. -/
theorem W1_v1 : W1 (F := Ideal) m ρ c (Proc.devRef .tc main_v1) = Stage.src aE := by
  show StableHlo.after hostOps0 (W0 m ρ c) (Proc.devRef .tc main_v1) = _
  after_results_simp
  rfl

/-- The edges' destinations. -/
theorem W1_v3 : W1 (F := Ideal) m ρ c (Proc.devRef .tc main_v3) = Stage.dst aE := by
  show StableHlo.after hostOps0 (W0 m ρ c) (Proc.devRef .tc main_v3) = _
  after_results_simp
  rfl

/-- The inverse square roots of the degrees. -/
theorem W1_v15 : W1 (F := Ideal) m ρ c (Proc.devRef .tc main_v15) = Stage.dinv aE := by
  show StableHlo.after hostOps0 (W0 m ρ c) (Proc.devRef .tc main_v15) = _
  after_results_simp
  rfl

/-- The nodes' own coefficients. -/
theorem W1_v17 : W1 (F := Ideal) m ρ c (Proc.devRef .tc main_v17) = Stage.selfCoef aE := by
  show StableHlo.after hostOps0 (W0 m ρ c) (Proc.devRef .tc main_v17) = _
  after_results_simp
  rfl

/-- The zero bias row. -/
theorem W1_v19 : W1 (F := Ideal) m ρ c (Proc.devRef .tc main_v19) = Stage.zeroRow := by
  show StableHlo.after hostOps0 (W0 m ρ c) (Proc.devRef .tc main_v19) = _
  after_results_simp
  rfl

/-! ## After the first region: the first feature product -/

theorem W2_v1 : W2 (F := Ideal) m ρ c (Proc.devRef .tc main_v1) = Stage.src aE := (W2_of_ne m ρ c main_v1 (by decide)).trans (W1_v1 m ρ c)
theorem W2_v3 : W2 (F := Ideal) m ρ c (Proc.devRef .tc main_v3) = Stage.dst aE := (W2_of_ne m ρ c main_v3 (by decide)).trans (W1_v3 m ρ c)
theorem W2_v15 : W2 (F := Ideal) m ρ c (Proc.devRef .tc main_v15) = Stage.dinv aE := (W2_of_ne m ρ c main_v15 (by decide)).trans (W1_v15 m ρ c)
theorem W2_v17 : W2 (F := Ideal) m ρ c (Proc.devRef .tc main_v17) = Stage.selfCoef aE := (W2_of_ne m ρ c main_v17 (by decide)).trans (W1_v17 m ρ c)
/-- The features times the first layer's weights. -/
theorem W2_v20 (h0 : H0) : W2 (F := Ideal) m ρ c (Proc.devRef .tc main_v20) = Stage.feat aX aW1 :=
  ((W2_arr m ρ c 3).trans (h0 (V1 m ρ) c)).trans (lin_congr (W1_arg0 m ρ c) (W1_arg2 m ρ c) (W1_v19 m ρ c))

/-! ## After the second stretch: the sources' rows gathered, the edges' coefficients -/

/-- Per edge, the source node's row of the feature product. -/
theorem W3_v27 (h0 : H0) : W3 (F := Ideal) m ρ c (Proc.devRef .tc main_v27) = Host.gather gather_S50000x128_S800000x1_S800000x128_1_0_n_n_0_1_1128 (Stage.feat aX aW1) (Stage.wrapCol (Stage.src aE)) := by
  show StableHlo.after hostOps1 (W2 m ρ c) (Proc.devRef .tc main_v27) = _
  after_results_simp
  rw [W2_v20 m ρ c h0, W2_v1 m ρ c]
  rfl

/-- The edges' coefficients. -/
theorem W3_v43 : W3 (F := Ideal) m ρ c (Proc.devRef .tc main_v43) = Stage.edgeCoef aE := by
  show StableHlo.after hostOps1 (W2 m ρ c) (Proc.devRef .tc main_v43) = _
  after_results_simp
  rw [W2_v15 m ρ c, W2_v1 m ρ c, W2_v3 m ρ c]
  rfl

theorem W3_v3 : W3 (F := Ideal) m ρ c (Proc.devRef .tc main_v3) = Stage.dst aE := (keepH1 m ρ c main_v3 (by decide)).trans (W2_v3 m ρ c)

/-! ## After the second region: the messages -/

/-- Per edge, the source's row scaled by the edge's coefficient. -/
theorem W4_v44 (h0 : H0) (h1 : H1) : W4 (F := Ideal) m ρ c (Proc.devRef .tc main_v44) = Stage.msgs aE (Stage.feat aX aW1) :=
  ((W4_arr m ρ c 2).trans (h1 (V3 m ρ) c)).trans (escale_congr (W3_v27 m ρ c h0) (W3_v43 m ρ c))
theorem W4_v3 : W4 (F := Ideal) m ρ c (Proc.devRef .tc main_v3) = Stage.dst aE := (W4_of_ne m ρ c main_v3 (by decide)).trans (W3_v3 m ρ c)
theorem W4_v17 : W4 (F := Ideal) m ρ c (Proc.devRef .tc main_v17) = Stage.selfCoef aE := (keepP1 m ρ c main_v17 (by decide) (by decide)).trans (W2_v17 m ρ c)
theorem W4_v20 (h0 : H0) : W4 (F := Ideal) m ρ c (Proc.devRef .tc main_v20) = Stage.feat aX aW1 := (keepP1 m ρ c main_v20 (by decide) (by decide)).trans (W2_v20 m ρ c h0)
theorem W4_arg3 : W4 (F := Ideal) m ρ c (Proc.devRef .tc main_arg3) = aB1 := launch4 m ρ c main_arg3 (by decide) (by decide) (by decide) (by decide)

/-! ## After the third stretch: the messages summed at their destinations, the first bias as a row -/

/-- The messages summed at the edges' destinations. -/
theorem W5_v47 (h0 : H0) (h1 : H1) : W5 (F := Ideal) m ρ c (Proc.devRef .tc main_v47) = Stage.agg aE (Stage.feat aX aW1) := by
  show StableHlo.after hostOps2 (W4 m ρ c) (Proc.devRef .tc main_v47) = _
  after_results_simp
  rw [W4_v3 m ρ c, W4_v44 m ρ c h0 h1]
  rfl

/-- The first layer's bias as a row. -/
theorem W5_v48 : W5 (F := Ideal) m ρ c (Proc.devRef .tc main_v48) = shapeCast _ aB1 shapeCasts_S128_S1x128 := by
  show StableHlo.after hostOps2 (W4 m ρ c) (Proc.devRef .tc main_v48) = _
  after_results_simp
  rw [W4_arg3 m ρ c]
  rfl

theorem W5_v17 : W5 (F := Ideal) m ρ c (Proc.devRef .tc main_v17) = Stage.selfCoef aE := (keepH2 m ρ c main_v17 (by decide)).trans (W4_v17 m ρ c)
theorem W5_v20 (h0 : H0) : W5 (F := Ideal) m ρ c (Proc.devRef .tc main_v20) = Stage.feat aX aW1 := (keepH2 m ρ c main_v20 (by decide)).trans (W4_v20 m ρ c h0)

/-! ## After the third region: the first layer -/

/-- The first layer: the summed messages, the node's own scaled features and the bias, rectified. -/
theorem W6_v49 (h0 : H0) (h1 : H1) (h2 : H2) : W6 (F := Ideal) m ρ c (Proc.devRef .tc main_v49) = Stage.layer aE aX aW1 aB1 :=
  ((W6_arr m ρ c 4).trans (h2 (V5 m ρ) c)).trans (npost_congr (W5_v47 m ρ c h0 h1) (W5_v20 m ρ c h0) (W5_v17 m ρ c) (W5_v48 m ρ c))
theorem W6_v17 : W6 (F := Ideal) m ρ c (Proc.devRef .tc main_v17) = Stage.selfCoef aE := (keepR2 m ρ c 2 rfl).trans (W5_v17 m ρ c)
theorem W6_v1 : W6 (F := Ideal) m ρ c (Proc.devRef .tc main_v1) = Stage.src aE := (keepP2 m ρ c main_v1 (by decide) (by decide)).trans ((keepP1 m ρ c main_v1 (by decide) (by decide)).trans (W2_v1 m ρ c))
theorem W6_v3 : W6 (F := Ideal) m ρ c (Proc.devRef .tc main_v3) = Stage.dst aE := (keepP2 m ρ c main_v3 (by decide) (by decide)).trans (W4_v3 m ρ c)
theorem W6_v15 : W6 (F := Ideal) m ρ c (Proc.devRef .tc main_v15) = Stage.dinv aE := (keepP2 m ρ c main_v15 (by decide) (by decide)).trans ((keepP1 m ρ c main_v15 (by decide) (by decide)).trans (W2_v15 m ρ c))
theorem W6_arg4 : W6 (F := Ideal) m ρ c (Proc.devRef .tc main_arg4) = aW2 := launch6 m ρ c main_arg4 (by decide) (by decide) (by decide) (by decide) (by decide) (by decide)

/-! ## After the fourth stretch: the zero bias row again -/

theorem W7_v49 (h0 : H0) (h1 : H1) (h2 : H2) : W7 (F := Ideal) m ρ c (Proc.devRef .tc main_v49) = Stage.layer aE aX aW1 aB1 := (keepH3 m ρ c main_v49 (by decide)).trans (W6_v49 m ρ c h0 h1 h2)
theorem W7_arg4 : W7 (F := Ideal) m ρ c (Proc.devRef .tc main_arg4) = aW2 := (keepH3 m ρ c main_arg4 (by decide)).trans (W6_arg4 m ρ c)

/-- The zero bias row. -/
theorem W7_v51 : W7 (F := Ideal) m ρ c (Proc.devRef .tc main_v51) = Stage.zeroRow := by
  show StableHlo.after hostOps3 (W6 m ρ c) (Proc.devRef .tc main_v51) = _
  after_results_simp
  rfl

/-! ## After the fourth region: the second feature product -/

/-- The first layer times the second layer's weights. -/
theorem W8_v52 (h0 : H0) (h1 : H1) (h2 : H2) (h3 : H3) : W8 (F := Ideal) m ρ c (Proc.devRef .tc main_v52) = Stage.feat (Stage.layer aE aX aW1 aB1) aW2 :=
  ((W8_arr m ρ c 3).trans (h3 (V7 m ρ) c)).trans (lin_congr (W7_v49 m ρ c h0 h1 h2) (W7_arg4 m ρ c) (W7_v51 m ρ c))
theorem W8_v1 : W8 (F := Ideal) m ρ c (Proc.devRef .tc main_v1) = Stage.src aE := (keepP3 m ρ c main_v1 (by decide) (by decide)).trans (W6_v1 m ρ c)
theorem W8_v3 : W8 (F := Ideal) m ρ c (Proc.devRef .tc main_v3) = Stage.dst aE := (keepP3 m ρ c main_v3 (by decide) (by decide)).trans (W6_v3 m ρ c)
theorem W8_v15 : W8 (F := Ideal) m ρ c (Proc.devRef .tc main_v15) = Stage.dinv aE := (keepP3 m ρ c main_v15 (by decide) (by decide)).trans (W6_v15 m ρ c)
theorem W8_v17 : W8 (F := Ideal) m ρ c (Proc.devRef .tc main_v17) = Stage.selfCoef aE := (keepP3 m ρ c main_v17 (by decide) (by decide)).trans (W6_v17 m ρ c)
theorem W8_arg5 : W8 (F := Ideal) m ρ c (Proc.devRef .tc main_arg5) = aB2 := launch8 m ρ c main_arg5 (by decide) (by decide) (by decide) (by decide) (by decide) (by decide) (by decide) (by decide)

/-! ## After the fifth stretch: the sources' rows gathered, the edges' coefficients -/

/-- Per edge, the source node's row of the second feature product. -/
theorem W9_v59 (h0 : H0) (h1 : H1) (h2 : H2) (h3 : H3) : W9 (F := Ideal) m ρ c (Proc.devRef .tc main_v59) = Host.gather gather_S50000x128_S800000x1_S800000x128_1_0_n_n_0_1_1128 (Stage.feat (Stage.layer aE aX aW1 aB1) aW2) (Stage.wrapCol (Stage.src aE)) := by
  show StableHlo.after hostOps4 (W8 m ρ c) (Proc.devRef .tc main_v59) = _
  after_results_simp
  rw [W8_v52 m ρ c h0 h1 h2 h3, W8_v1 m ρ c]
  rfl

/-- The edges' coefficients. -/
theorem W9_v75 : W9 (F := Ideal) m ρ c (Proc.devRef .tc main_v75) = Stage.edgeCoef aE := by
  show StableHlo.after hostOps4 (W8 m ρ c) (Proc.devRef .tc main_v75) = _
  after_results_simp
  rw [W8_v15 m ρ c, W8_v1 m ρ c, W8_v3 m ρ c]
  rfl

/-! ## After the fifth region: the second layer's messages -/

theorem W10_v76 (h0 : H0) (h1 : H1) (h2 : H2) (h3 : H3) (h4 : H4) : W10 (F := Ideal) m ρ c (Proc.devRef .tc main_v76) = Stage.msgs aE (Stage.feat (Stage.layer aE aX aW1 aB1) aW2) :=
  ((W10_arr m ρ c 2).trans (h4 (V9 m ρ) c)).trans (escale_congr (W9_v59 m ρ c h0 h1 h2 h3) (W9_v75 m ρ c))
theorem W10_v3 : W10 (F := Ideal) m ρ c (Proc.devRef .tc main_v3) = Stage.dst aE := (keepP4 m ρ c main_v3 (by decide) (by decide)).trans (W8_v3 m ρ c)
theorem W10_v17 : W10 (F := Ideal) m ρ c (Proc.devRef .tc main_v17) = Stage.selfCoef aE := (keepP4 m ρ c main_v17 (by decide) (by decide)).trans (W8_v17 m ρ c)
theorem W10_v52 (h0 : H0) (h1 : H1) (h2 : H2) (h3 : H3) : W10 (F := Ideal) m ρ c (Proc.devRef .tc main_v52) = Stage.feat (Stage.layer aE aX aW1 aB1) aW2 := (keepP4 m ρ c main_v52 (by decide) (by decide)).trans (W8_v52 m ρ c h0 h1 h2 h3)
theorem W10_arg5 : W10 (F := Ideal) m ρ c (Proc.devRef .tc main_arg5) = aB2 := (keepP4 m ρ c main_arg5 (by decide) (by decide)).trans (W8_arg5 m ρ c)

/-! ## After the sixth stretch: the messages summed at their destinations, the second bias as a row -/

/-- The second layer's messages summed at the edges' destinations. -/
theorem W11_v79 (h0 : H0) (h1 : H1) (h2 : H2) (h3 : H3) (h4 : H4) : W11 (F := Ideal) m ρ c (Proc.devRef .tc main_v79) = Stage.agg aE (Stage.feat (Stage.layer aE aX aW1 aB1) aW2) := by
  show StableHlo.after hostOps5 (W10 m ρ c) (Proc.devRef .tc main_v79) = _
  after_results_simp
  rw [W10_v3 m ρ c, W10_v76 m ρ c h0 h1 h2 h3 h4]
  rfl

/-- The second layer's bias as a row. -/
theorem W11_v80 : W11 (F := Ideal) m ρ c (Proc.devRef .tc main_v80) = shapeCast _ aB2 shapeCasts_S128_S1x128 := by
  show StableHlo.after hostOps5 (W10 m ρ c) (Proc.devRef .tc main_v80) = _
  after_results_simp
  rw [W10_arg5 m ρ c]
  rfl

theorem W11_v17 : W11 (F := Ideal) m ρ c (Proc.devRef .tc main_v17) = Stage.selfCoef aE := (keepH5 m ρ c main_v17 (by decide)).trans (W10_v17 m ρ c)
theorem W11_v52 (h0 : H0) (h1 : H1) (h2 : H2) (h3 : H3) : W11 (F := Ideal) m ρ c (Proc.devRef .tc main_v52) = Stage.feat (Stage.layer aE aX aW1 aB1) aW2 := (keepH5 m ρ c main_v52 (by decide)).trans (W10_v52 m ρ c h0 h1 h2 h3)

/-! ## After the sixth region: the second layer -/

theorem W12_v81 (h0 : H0) (h1 : H1) (h2 : H2) (h3 : H3) (h4 : H4) (h5 : H5) : W12 (F := Ideal) m ρ c (Proc.devRef .tc main_v81) = Stage.layer aE (Stage.layer aE aX aW1 aB1) aW2 aB2 :=
  ((W12_arr m ρ c 4).trans (h5 (V11 m ρ) c)).trans (npost_congr (W11_v79 m ρ c h0 h1 h2 h3 h4) (W11_v52 m ρ c h0 h1 h2 h3) (W11_v17 m ρ c) (W11_v80 m ρ c))
theorem W12_arg6 : W12 (F := Ideal) m ρ c (Proc.devRef .tc main_arg6) = aWc := launch12 m ρ c main_arg6 (by decide) (by decide) (by decide) (by decide) (by decide) (by decide) (by decide) (by decide) (by decide) (by decide) (by decide) (by decide)
theorem W12_arg7 : W12 (F := Ideal) m ρ c (Proc.devRef .tc main_arg7) = aBc := launch12 m ρ c main_arg7 (by decide) (by decide) (by decide) (by decide) (by decide) (by decide) (by decide) (by decide) (by decide) (by decide) (by decide) (by decide)

/-! ## After the last stretch: the classifier's bias as a row -/

theorem W13_v81 (h0 : H0) (h1 : H1) (h2 : H2) (h3 : H3) (h4 : H4) (h5 : H5) : W13 (F := Ideal) m ρ c (Proc.devRef .tc main_v81) = Stage.layer aE (Stage.layer aE aX aW1 aB1) aW2 aB2 := (keepH6 m ρ c main_v81 (by decide)).trans (W12_v81 m ρ c h0 h1 h2 h3 h4 h5)
theorem W13_arg6 : W13 (F := Ideal) m ρ c (Proc.devRef .tc main_arg6) = aWc := (keepH6 m ρ c main_arg6 (by decide)).trans (W12_arg6 m ρ c)

/-- The classifier's bias as a row. -/
theorem W13_v82 : W13 (F := Ideal) m ρ c (Proc.devRef .tc main_v82) = shapeCast _ aBc shapeCasts_S40_S1x40 := by
  show StableHlo.after hostOps6 (W12 m ρ c) (Proc.devRef .tc main_v82) = _
  after_results_simp
  rw [W12_arg7 m ρ c]
  rfl

/-! ## The result array -/

/-- After the last region the result array holds the classifier applied to the second layer. -/
theorem W14_v83 (h0 : H0) (h1 : H1) (h2 : H2) (h3 : H3) (h4 : H4) (h5 : H5) (h6 : H6) :
    W14 (F := Ideal) m ρ c (Proc.devRef .tc main_v83) = Stage.out aE aX aW1 aB1 aW2 aB2 aWc aBc :=
  ((W14_arr m ρ c 3).trans (h6 (V13 m ρ) c)).trans (lin_congr (W13_v81 m ρ c h0 h1 h2 h3 h4 h5) (W13_arg6 m ρ c) (W13_v82 m ρ c))

set_option maxHeartbeats 400000 in
/-- The array the program returns is the classifier applied to the two layers, as one function of the eight launched arrays. -/
theorem result_eq
    (h0 : ∀ (V : Entry) (c : Dev nD), (dat0 (F := Ideal) V c).arrAt 3 cfg0.N = Gcn.lin (R := 50000) (K := 128) (C := 128) (V c main_arg0) (V c main_arg2) (V c main_v19))
    (h1 : ∀ (V : Entry) (c : Dev nD), (dat1 (F := Ideal) V c).arrAt 2 cfg1.N = Gcn.escale (E := 800000) (C := 128) (V c main_v27) (V c main_v43))
    (h2 : ∀ (V : Entry) (c : Dev nD), (dat2 (F := Ideal) V c).arrAt 4 cfg2.N = Gcn.npost (R := 50000) (C := 128) (V c main_v47) (V c main_v20) (V c main_v17) (V c main_v48))
    (h3 : ∀ (V : Entry) (c : Dev nD), (dat3 (F := Ideal) V c).arrAt 3 cfg3.N = Gcn.lin (R := 50000) (K := 128) (C := 128) (V c main_v49) (V c main_arg4) (V c main_v51))
    (h4 : ∀ (V : Entry) (c : Dev nD), (dat4 (F := Ideal) V c).arrAt 2 cfg4.N = Gcn.escale (E := 800000) (C := 128) (V c main_v59) (V c main_v75))
    (h5 : ∀ (V : Entry) (c : Dev nD), (dat5 (F := Ideal) V c).arrAt 4 cfg5.N = Gcn.npost (R := 50000) (C := 128) (V c main_v79) (V c main_v52) (V c main_v17) (V c main_v80))
    (h6 : ∀ (V : Entry) (c : Dev nD), (dat6 (F := Ideal) V c).arrAt 3 cfg6.N = Gcn.lin (R := 50000) (K := 128) (C := 40) (V c main_v81) (V c main_arg6) (V c main_v82))
    (m : (ℓ : Loc nD τ sig) → Buf (Elt Ideal) ℓ) (ρ : Dev nD → PrngReg) (c : Dev nD) :
    W14 (F := Ideal) m ρ c (Proc.devRef .tc main_v83)
      = Stage.out (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  W14_v83 m ρ c h0 h1 h2 h3 h4 h5 h6

end Cert.KernelIdeal.Walk

end
-- ==== Proof.LibRowGather.lean ====
/-
  A row gather read at an index, and the range mask of a filled row take.

  Rows of a two-axis table `x : [N, C]` are gathered at a column `col : [E, 1]` of signed 32-bit start indices, one row per
  entry: result row `e` is the table's row at `col e`, the start index clamped into `[0, N - 1]`. When the entry already
  lies in `[0, N)` the clamp does nothing and the result at `(e, c)` is `x` at row `col e`, column `c`.
-/
import Idealize.ShloMosaic.Lib.ValueIdx
import Idealize.ShloMosaic.Lib.StableHlo.Predicate

noncomputable section

namespace Cert.LibRowGather

open Idealize.ShloMosaic Idealize.ShloMosaic.ValueIdx

/-- The row an in-range signed index word names. -/
def rowOf (N : Nat) (b : BitVec 32) (h : 0 ≤ b.toInt ∧ b.toInt < N) : Fin N := ⟨b.toInt.toNat, by omega⟩

/-- The dimension numbers of a row gather: one start index per result row, naming operand axis 0, which is collapsed;
    the result's axis 1 runs over the operand's whole axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- THE ROW GATHER READ AT `(e, c)`: with the start index of row `e` in `[0, N)`, the table at that row, column `c`. -/
theorem gather_rows_apply {α : Type} {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ 32) (e : Fin E) (c : Fin C)
    (h : 0 ≤ (col (ix2 e (0 : Fin 1))).toInt ∧ (col (ix2 e (0 : Fin 1))).toInt < N) :
    Host.gather (rowGatherDims N E C wf) x col (ix2 e c) = x (ix2 (rowOf N _ h) c) := by
  -- the operand index is, on each axis, the clamped start plus the batching coordinate plus the offset coordinate;
  -- there is no batching axis
  unfold Host.gather
  congr 1
  funext a
  refine Fin.ext ?_
  show (rowGatherDims N E C wf).start (ix2 e c) col a + (rowGatherDims N E C wf).batchCoord (ix2 e c) a
    + (rowGatherDims N E C wf).offCoord (ix2 e c) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · -- axis 0 (collapsed and start-indexed): no offset; the start is row `e`'s index word read signed and clamped into
    -- `[0, N - 1]`, which is the word's value since it already lies in `[0, N)`
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min (col (ix2 e (0 : Fin 1))).toInt.toNat (N - 1) = (col (ix2 e (0 : Fin 1))).toInt.toNat
    omega
  · -- axis 1 (kept, not start-indexed): the start is zero and the offset coordinate is the result's column `c`
    have h10 : (1 : Fin 2) ∉ ([0] : List (Fin 2)) := fun h => absurd (List.mem_singleton.mp h) (by decide)
    unfold GatherDims.start
    rw [dif_neg (show (1 : Fin 2) ∉ (rowGatherDims N E C wf).startIndexMap from h10)]
    unfold GatherDims.offCoord
    rw [dif_pos (show (1 : Fin 2) ∈ (rowGatherDims N E C wf).sKept from
      (GatherDims.mem_sKept _ _).mpr ⟨h10, List.not_mem_nil⟩)]
    simp only [Nat.add_zero, Nat.zero_add]
    rfl

/-- A vector laid out as an `[E, 1]` column reads, at row `e`, the vector at `e`. -/
theorem col_apply {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A vector laid out along the rows of an `[E, C]` rectangle (first as a column, then across) reads, at `(e, c)`, the
    vector at `e`. -/
theorem rows_apply {α : Type} {E C : Nat} (h₁ : (⟨1, ![E]⟩ : Shape).BroadcastsInDim ⟨2, ![E, 1]⟩ ![0])
    (h₂ : (⟨2, ![E, 1]⟩ : Shape).BroadcastsInDim ⟨2, ![E, C]⟩ ![0, 1]) (v : (⟨1, ![E]⟩ : Shape).Idx → α) (e : Fin E) (c : Fin C) :
    broadcastInDim ⟨2, ![E, C]⟩ ![0, 1] h₂ (broadcastInDim ⟨2, ![E, 1]⟩ ![0] h₁ v) (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · split
    · next h2 => change E = 1 at h2; show (0 : Nat) = e.val; omega
    · rfl

/-- A one-bit vector laid out along the rows of an `[E, C]` rectangle reads, at `(e, c)`, the vector at `e`. -/
theorem rowbit_apply {α : Type} {E C : Nat} (h : (⟨1, ![E]⟩ : Shape).BroadcastsInDim ⟨2, ![E, C]⟩ ![0])
    (v : (⟨1, ![E]⟩ : Shape).Idx → α) (e : Fin E) (c : Fin C) :
    broadcastInDim ⟨2, ![E, C]⟩ ![0] h v (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A signed-non-negative 32-bit word lies below 2³¹ and reads the same signed and unsigned. -/
private theorem toNat_of_toInt_nonneg (x : BitVec 32) (h : 0 ≤ x.toInt) : x.toNat < 2 ^ 31 ∧ x.toInt = x.toNat := by
  have hc := BitVec.toInt_eq_toNat_cond x
  have hx := x.isLt
  split at hc <;> omega

/-- A left fold by `and` from the bit one over bits that are all one is one. -/
private theorem foldl_andi_one {ι : Type} (f : ι → BitVec 1) :
    ∀ l : List ι, (∀ n ∈ l, f n = 1#1) → l.foldl (fun r n => IntOp.andi r (f n)) 1#1 = 1#1
  | [], _ => rfl
  | b :: l, h => by
    have h11 : IntOp.andi 1#1 1#1 = 1#1 := by decide
    rw [List.foldl_cons, h b List.mem_cons_self, h11]
    exact foldl_andi_one f l (fun n hn => h n (List.mem_cons_of_mem _ hn))

/-- An `and`-reduction from the bit one of an array whose every bit is one is one at every result index. -/
private theorem reduce_andi_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) :
    Host.reduce IntOp.andi x init h hu j = 1#1 := by
  rw [Host.reduce_eq_foldl, hinit]
  exact foldl_andi_one x _ (fun i _ => hx i)

section Mask
variable {N E : Nat}
  (hbE : (⟨0, ![]⟩ : Shape).BroadcastsInDim ⟨1, ![E]⟩ ![])
  (hcol : (⟨1, ![E]⟩ : Shape).BroadcastsInDim ⟨2, ![E, 1]⟩ ![0])
  (hbE1 : (⟨0, ![]⟩ : Shape).BroadcastsInDim ⟨2, ![E, 1]⟩ ![])
  (hb11 : (⟨1, ![1]⟩ : Shape).BroadcastsInDim ⟨2, ![1, 1]⟩ ![1])
  (hb11E1 : (⟨2, ![1, 1]⟩ : Shape).BroadcastsInDim ⟨2, ![E, 1]⟩ ![0, 1])
  (hred : (⟨2, ![E, 1]⟩ : Shape).ReducesTo [1] ⟨1, ![E]⟩)
  (h0 : 0 < (⟨0, ![]⟩ : Shape).numel)
  (wN wM : BitVec 32) (a : IVec ⟨1, ![E]⟩ 32)

/-- The index column as printed: a negative entry of `a` wrapped by adding the word `wN`, then laid out as `[E, 1]`. -/
abbrev idxCol : IVec ⟨2, ![E, 1]⟩ 32 :=
  broadcastInDim ⟨2, ![E, 1]⟩ ![0] hcol
    (select (cmpi .slt a (broadcastInDim ⟨1, ![E]⟩ ![] hbE (constantI ⟨0, ![]⟩ 32 0#32)))
      (addi a (broadcastInDim ⟨1, ![E]⟩ ![] hbE (constantI ⟨0, ![]⟩ 32 wN))) a)

/-- The range mask as printed: per row, the column's entry is at least zero and at most the word `wM` (both signed),
    the two tests joined and reduced by `and` along the column's unit axis. -/
abbrev okVec : IVec ⟨1, ![E]⟩ 1 :=
  Host.reduce IntOp.andi
    (andi (cmpi .sge (idxCol hbE hcol wN a) (broadcastInDim ⟨2, ![E, 1]⟩ ![] hbE1 (constantI ⟨0, ![]⟩ 32 0#32)))
      (cmpi .sle (idxCol hbE hcol wN a)
        (broadcastInDim ⟨2, ![E, 1]⟩ ![0, 1] hb11E1 (broadcastInDim ⟨2, ![1, 1]⟩ ![1] hb11 (constantI ⟨1, ![1]⟩ 32 wM)))))
    (constantI ⟨0, ![]⟩ 1 1#1) hred h0

variable (ha : ∀ e : Fin E, 0 ≤ (a (ix1 e)).toInt ∧ (a (ix1 e)).toInt < N)

include ha in
/-- With every index non-negative the wrap does nothing: the column at row `e` is `a e`. -/
theorem idxCol_apply (e : Fin E) : idxCol hbE hcol wN a (ix2 e (0 : Fin 1)) = a (ix1 e) := by
  -- the signed test "entry < 0" is the bit zero, since the entry is non-negative
  have hslt : IntOp.cmpi .slt (a (ix1 e)) 0#32 = 0#1 := by
    have h := (ha e).1
    have h0 : (0#32 : BitVec 32).toInt = 0 := by decide
    have hf : (a (ix1 e)).slt 0#32 = false := by
      simp only [BitVec.slt, h0, decide_eq_false_iff_not, not_lt]; exact h
    show BitVec.ofBool ((a (ix1 e)).slt 0#32) = 0#1
    rw [hf]; rfl
  refine (col_apply hcol _ e).trans ?_
  show Scalar.select (IntOp.cmpi .slt (a (ix1 e)) 0#32) (IntOp.addi (a (ix1 e)) wN) (a (ix1 e)) = a (ix1 e)
  rw [hslt, select_zero]

include ha in
/-- With every index in `[0, N)`, `N` below 2³¹ and `wM` the word of `N - 1`, the mask is one at every row. -/
theorem okVec_apply (hN : N < 2 ^ 31) (hM : wM.toNat = N - 1) (e : Fin E) :
    okVec hbE hcol hbE1 hb11 hb11E1 hred h0 wN wM a (ix1 e) = 1#1 := by
  -- the reduction starts from the bit one, so it is enough that the joined test is one at every entry `(e', 0)`
  refine reduce_andi_of_all _ _ hred h0 _ rfl ?_
  intro i
  obtain ⟨e', z, rfl⟩ : ∃ (e' : Fin E) (z : Fin 1), i = ix2 e' z := ⟨i 0, i 1, eq_ix2 i⟩
  obtain rfl : z = 0 := Subsingleton.elim _ _
  have hcolv := idxCol_apply hbE hcol wN a ha e'
  obtain ⟨hlt, hint⟩ := toNat_of_toInt_nonneg (a (ix1 e')) (ha e').1
  have hup := (ha e').2
  -- both signed tests hold of the entry: it is at least zero and at most N - 1
  have hge : IntOp.cmpi .sge (a (ix1 e')) 0#32 = 1#1 :=
    (StableHlo.Predicate.sge_iff_toNat hlt (by decide)).2 (Nat.zero_le _)
  have hle : IntOp.cmpi .sle (a (ix1 e')) wM = 1#1 :=
    (StableHlo.Predicate.sle_iff_toNat hlt (by omega)).2 (by omega)
  show IntOp.andi (IntOp.cmpi .sge (idxCol hbE hcol wN a (ix2 e' (0 : Fin 1))) 0#32)
    (IntOp.cmpi .sle (idxCol hbE hcol wN a (ix2 e' (0 : Fin 1))) wM) = 1#1
  rw [hcolv, hge, hle]
  decide

end Mask

end Cert.LibRowGather

end
-- ==== Proof.Join.lean ====
/-
  The kernel program's staged result and the reference program's result are one function of the eight arguments.

  The kernel side computes three kinds of array index by index: the affine map (features times weights plus a bias row),
  the edge scaling (each gathered row times its edge's coefficient) and the node update (messages plus scaled self
  features plus bias, rectified).  The reference side computes the same arrays with whole-array operations: a contraction,
  broadcasts of a vector along rows or of a row along columns, elementwise products, sums and a maximum.  Four lemmas,
  each over arbitrary arrays, identify an index-by-index array with its whole-array form; everything else on the two
  sides (slices of the edge list, wrapped indices, gathers, scatter-adds, the inverse square root of the degrees) is
  spelt by the same operations on both sides and agrees term by term.
-/
import proofs.«120160_j74345883894179_1_alg».proof.Proof.Stage
import proofs.«120160_j74345883894179_1_alg».proof.Proof.Gen.ReferenceIdeal.Read
import proofs.«120160_j74345883894179_1_alg».proof.Proof.LibColumn
import proofs.«120160_j74345883894179_1_alg».proof.Proof.LibRowGather
import Idealize.ShloMosaic.Lib.ValueIdx
import Idealize.ShloMosaic.Lib.ValueLayout
import Idealize.ShloMosaic.Lib.Pipeline.Value
import Idealize.ShloMosaic.PureOps.Ideal.Laws

noncomputable section

namespace Cert.Join

open Idealize.ShloMosaic Idealize.ShloMosaic.ValueIdx
open Cert.ReferenceIdeal Cert.ReferenceIdeal.Gen Cert.ReferenceIdeal.Read

/-! ## The affine map with a zero bias row is the contraction -/

/-- The zero bias row holds zero at every column. -/
theorem zeroRow_apply (q : Fin 128) : Cert.KernelIdeal.Stage.zeroRow (ix2 (0 : Fin 1) q) = 0 := by
  unfold Cert.KernelIdeal.Stage.zeroRow
  rw [shapeCast_a_1a_apply]
  exact Ideal.ofBits_zero_f32

/-- Entry (p, q) of the affine map with the zero row is the sum over k of x(p, k) · w(k, q), which is the contraction's
    entry. -/
theorem lin_zeroRow (x : (⟨S50000x128, .f32⟩ : BufTy).Contents (Elt Ideal))
    (w : (⟨S128x128, .f32⟩ : BufTy).Contents (Elt Ideal)) :
    Cert.Gcn.lin (R := 50000) (K := 128) (C := 128) x w Cert.KernelIdeal.Stage.zeroRow
      = val_main_v16 (F := Ideal) x w := by
  funext i
  obtain ⟨p, q, rfl⟩ : ∃ (p : Fin 50000) (q : Fin 128), i = ix2 p q := ⟨i 0, i 1, eq_ix2 i⟩
  rw [Cert.Gcn.lin_apply, val_main_v16_apply, zeroRow_apply, add_zero]
  refine Finset.sum_congr rfl fun k _ => ?_
  have el : lidx_main_v16 (ix2 p q) k = ix2 p k := by
    funext a
    match a with
    | ⟨0, _⟩ => rfl
    | ⟨1, _⟩ => rfl
  have er : ridx_main_v16 (ix2 p q) k = ix2 k q := by
    funext a
    match a with
    | ⟨0, _⟩ => rfl
    | ⟨1, _⟩ => rfl
  rw [el, er]

/-! ## Layout readings used below -/

/-- A vector cast to an `[a, 1]` column reads, at row `i`, the vector at `i`: both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_two, Shape.rowMajor_val_one]
    show i.val = i.val * 1 + 0
    omega)

/-- A vector laid out as a `[1, C]` row and then down the rows of an `[R, C]` rectangle reads, at `(r, c)`, the vector at
    `c`: the unit axis reads at zero, the long axis at the result's own column. -/
theorem cols_apply {α : Type} {R C : ℕ} (h₁ : (⟨1, ![C]⟩ : Shape).BroadcastsInDim ⟨2, ![1, C]⟩ ![1])
    (h₂ : (⟨2, ![1, C]⟩ : Shape).BroadcastsInDim ⟨2, ![R, C]⟩ ![0, 1]) (v : (⟨1, ![C]⟩ : Shape).Idx → α)
    (r : Fin R) (c : Fin C) :
    broadcastInDim ⟨2, ![R, C]⟩ ![0, 1] h₂ (broadcastInDim ⟨2, ![1, C]⟩ ![1] h₁ v) (ix2 r c) = v (ix1 c) := by
  have hc := c.isLt
  refine (broadcastInDim_apply ![0, 1] h₂ _ (ix2 r c) (ix2 (0 : Fin 1) c) fun ax => ?_).trans
    (broadcastInDim_apply ![1] h₁ v (ix2 (0 : Fin 1) c) (ix1 c) fun ax => ?_)
  · match ax with
    | ⟨0, _⟩ => rfl
    | ⟨1, _⟩ =>
      show c.val = if C = 1 then 0 else c.val
      split
      · omega
      · rfl
  · match ax with
    | ⟨0, _⟩ =>
      show c.val = if C = 1 then 0 else c.val
      split
      · omega
      · rfl

/-! ## The edge scaling is a product with the coefficient vector broadcast along rows -/

/-- Row `e` of the gathered features times the coefficient column's entry `(e, 0)`, the column being the coefficient vector
    cast, is the product with the coefficient vector broadcast to a column and then across: both read the vector at `e`. -/
theorem escale_cast (hs : (⟨S800000x128, .f32⟩ : BufTy).Contents (Elt Ideal))
    (v : (⟨S800000, .f32⟩ : BufTy).Contents (Elt Ideal)) :
    Cert.Gcn.escale (E := 800000) (C := 128) hs (shapeCast _ v Cert.KernelIdeal.Gen.shapeCasts_S800000_S800000x1)
      = mulf (F := Ideal) (φ := .f32) hs
          (broadcastInDim S800000x128 ![0, 1] bcast_S800000x1_S800000x128_0_1
            (broadcastInDim S800000x1 ![0] bcast_S800000_S800000x1_0 v)) := by
  funext i
  obtain ⟨e, c, rfl⟩ : ∃ (e : Fin 800000) (c : Fin 128), i = ix2 e c := ⟨i 0, i 1, eq_ix2 i⟩
  rw [Cert.Gcn.escale_apply, mulf_apply, Cert.LibRowGather.rows_apply, shapeCast_a_a1_apply]

/-! ## The node update is the reference's sum, sum and maximum of whole arrays -/

/-- Entry `(r, c)` of the node update, with the self coefficient the cast of a vector `d` and the bias row the cast of a vector
    `b`, is the entry of `max(agg + h · d↑ + b↑, 0↑)` where `d↑` repeats `d` along rows, `b↑` repeats `b` along columns and
    `0↑` is the float zero everywhere. -/
theorem npost_cast (agg h : (⟨S50000x128, .f32⟩ : BufTy).Contents (Elt Ideal))
    (d : (⟨S50000, .f32⟩ : BufTy).Contents (Elt Ideal)) (b : (⟨S128, .f32⟩ : BufTy).Contents (Elt Ideal)) :
    Cert.Gcn.npost (R := 50000) (C := 128) agg h (shapeCast _ d Cert.KernelIdeal.Gen.shapeCasts_S50000_S50000x1)
        (shapeCast _ b Cert.KernelIdeal.Gen.shapeCasts_S128_S1x128)
      = maximumf (F := Ideal) (φ := .f32)
          (addf (F := Ideal) (φ := .f32)
            (addf (F := Ideal) (φ := .f32) agg
              (mulf (F := Ideal) (φ := .f32) h
                (broadcastInDim S50000x128 ![0, 1] bcast_S50000x1_S50000x128_0_1
                  (broadcastInDim S50000x1 ![0] bcast_S50000_S50000x1_0 d))))
            (broadcastInDim S50000x128 ![0, 1] bcast_S1x128_S50000x128_0_1
              (broadcastInDim S1x128 ![1] bcast_S128_S1x128_1 b)))
          (broadcastInDim S50000x128 ![] bcast_S_S50000x128 (constant (F := Ideal) S_ .f32 0x00000000#32)) := by
  funext i
  obtain ⟨r, c, rfl⟩ : ∃ (r : Fin 50000) (c : Fin 128), i = ix2 r c := ⟨i 0, i 1, eq_ix2 i⟩
  rw [Cert.Gcn.npost_apply, maximumf_apply, addf_apply, addf_apply, mulf_apply, Cert.LibRowGather.rows_apply,
    cols_apply, shapeCast_a_a1_apply, shapeCast_a_1a_apply]
  rfl

/-! ## The classifier is the contraction plus the bias repeated along columns -/

/-- The contraction of a `[50000, 128]` array with a `[128, 40]` array, read at `(p, q)`: the sum over `k` of `h(p, k) · w(k, q)`. -/
theorem dot40_apply (h : (⟨S50000x128, .f32⟩ : BufTy).Contents (Elt Ideal))
    (w : (⟨S128x40, .f32⟩ : BufTy).Contents (Elt Ideal)) (p : Fin 50000) (q : Fin 40) :
    Host.dotGeneral (F := Ideal) (φ₁ := .f32) (φ₂ := .f32) dot_S50000x128_S128x40_S50000x40_1_0_0_1_n_n none h w (ix2 p q)
      = ∑ k : Fin 128, h (ix2 p k) * w (ix2 k q) := by
  simp only [Host.dotGeneral]
  rw [Ideal.dotGeneral_apply,
    ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 p q)
      ((contrEquiv1 dot_S50000x128_S128x40_S50000x40_1_0_0_1_n_n 128 rfl rfl).symm k) = ix2 p k :=
    funext fun a => Fin.ext (by
      match a with
      | ⟨0, _⟩ => exact lhs_main_v92_0 _ _
      | ⟨1, _⟩ => exact (lhs_main_v92_1 _ _).trans hk)
  have er : dot_S50000x128_S128x40_S50000x40_1_0_0_1_n_n.rhsIdx (ix2 p q)
      ((contrEquiv1 dot_S50000x128_S128x40_S50000x40_1_0_0_1_n_n 128 rfl rfl).symm k) = ix2 k q :=
    funext fun a => Fin.ext (by
      match a with
      | ⟨0, _⟩ => exact (rhs_main_v92_0 _ _).trans hk
      | ⟨1, _⟩ => exact rhs_main_v92_1 _ _)
  rw [el, er]

/-- The affine map with the bias row the cast of a vector is the contraction plus the vector repeated along columns. -/
theorem lin_cast (h : (⟨S50000x128, .f32⟩ : BufTy).Contents (Elt Ideal))
    (wc : (⟨S128x40, .f32⟩ : BufTy).Contents (Elt Ideal)) (bc : (⟨S40, .f32⟩ : BufTy).Contents (Elt Ideal)) :
    Cert.Gcn.lin (R := 50000) (K := 128) (C := 40) h wc (shapeCast _ bc Cert.KernelIdeal.Gen.shapeCasts_S40_S1x40)
      = addf (F := Ideal) (φ := .f32)
          (Host.dotGeneral (F := Ideal) (φ₁ := .f32) (φ₂ := .f32) dot_S50000x128_S128x40_S50000x40_1_0_0_1_n_n none h wc)
          (broadcastInDim S50000x40 ![0, 1] bcast_S1x40_S50000x40_0_1
            (broadcastInDim S1x40 ![1] bcast_S40_S1x40_1 bc)) := by
  funext i
  obtain ⟨p, q, rfl⟩ : ∃ (p : Fin 50000) (q : Fin 40), i = ix2 p q := ⟨i 0, i 1, eq_ix2 i⟩
  rw [Cert.Gcn.lin_apply, addf_apply, dot40_apply, cols_apply, shapeCast_a_1a_apply]

/-! ## One layer, two layers, the classifier -/

/-- One layer of the kernel side is the reference's first rectified array, as a function of arbitrary features, edge list,
    weights and bias: the three index-by-index arrays are rewritten to their whole-array forms, and what remains is the
    same slices, wrapped indices, gathers, scatter-adds and inverse square root on both sides. -/
theorem layer_eq (e : (⟨S2x800000, .i32⟩ : BufTy).Contents (Elt Ideal))
    (x : (⟨S50000x128, .f32⟩ : BufTy).Contents (Elt Ideal)) (w : (⟨S128x128, .f32⟩ : BufTy).Contents (Elt Ideal))
    (b : (⟨S128, .f32⟩ : BufTy).Contents (Elt Ideal)) :
    Cert.KernelIdeal.Stage.layer e x w b = val_main_v53 (F := Ideal) x e w b := by
  unfold Cert.KernelIdeal.Stage.layer Cert.KernelIdeal.Stage.agg Cert.KernelIdeal.Stage.msgs
    Cert.KernelIdeal.Stage.feat Cert.KernelIdeal.Stage.edgeCoef Cert.KernelIdeal.Stage.selfCoef
  rw [lin_zeroRow, escale_cast, npost_cast]
  rfl

/-- The reference's second rectified array is its first one applied to the first layer's result, the second weights and
    the second bias: its operations repeat the first layer's one for one, on the same edge list. -/
theorem second_layer (x0 : (⟨S50000x128, .f32⟩ : BufTy).Contents (Elt Ideal))
    (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) :
    val_main_v53 (F := Ideal) (val_main_v53 (F := Ideal) x0 x1 x2 x3) x1 x4 x5
      = val_main_v91 (F := Ideal) x0 x1 x2 x3 x4 x5 := rfl

/-- THE JOIN: the kernel side's two layers and classifier are the reference's result, as functions of the eight arguments. -/
theorem out_eq (x0 : (⟨S50000x128, .f32⟩ : BufTy).Contents (Elt Ideal))
    (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x40, .f32⟩ : BufTy).Contents (Elt Ideal)) (x7 : (⟨S40, .f32⟩ : BufTy).Contents (Elt Ideal)) :
    Cert.KernelIdeal.Stage.out x1 x0 x2 x3 x4 x5 x6 x7
      = val_main_v95 (F := Ideal) x0 x1 x2 x3 x4 x5 x6 x7 := by
  unfold Cert.KernelIdeal.Stage.out
  rw [layer_eq, layer_eq, second_layer, lin_cast]
  rfl

end Cert.Join

end
-- ==== Proof.lean ====
/-
  The certificate of a two-layer graph convolution with a linear classifier, computed by seven pallas_calls among host
  gathers and scatter-adds, against the plain jnp reference.

  At the extended reals both programs compute ONE function of the eight arguments.  A layer forms h = x · W, gathers h at
  each edge's source, scales the row by dinv(src) · dinv(dst), sums the rows at the edges' destinations, adds
  h · dinv² (the self loop) and the bias, and rectifies; the result is (layer₂ ∘ layer₁)(x) · Wc + bc.  The kernel computes
  h with a zero bias row (a + 0 = a), the edge scaling and the node update in regions whose blocks tile their arrays, and
  lays the coefficient columns out by shape casts where the reference broadcasts; the degree, the gathers and the
  scatter-adds are the same host operations in both programs and are never opened.  No law used needs finiteness, so
  the precondition is not opened.

  The three frames are the generated ones (the reference's is its generated run with the result dropped); the kernel's
  value is read off the generated frame's boundary contents: each region's array by its blocks' cover, each host stretch
  by its operations' composed term.
-/
import proofs.«120160_j74345883894179_1_alg».proof.Defs
import proofs.«120160_j74345883894179_1_alg».proof.Proof.Gen.Kernel
import proofs.«120160_j74345883894179_1_alg».proof.Proof.Gen.Kernel.Skeleton
import proofs.«120160_j74345883894179_1_alg».proof.Proof.Gen.Kernel.Launch
import proofs.«120160_j74345883894179_1_alg».proof.Proof.Gen.Kernel.Points
import proofs.«120160_j74345883894179_1_alg».proof.Proof.Gen.Kernel.Frame
import proofs.«120160_j74345883894179_1_alg».proof.Proof.Gen.KernelIdeal
import proofs.«120160_j74345883894179_1_alg».proof.Proof.Gen.KernelIdeal.Skeleton
import proofs.«120160_j74345883894179_1_alg».proof.Proof.Gen.KernelIdeal.Launch
import proofs.«120160_j74345883894179_1_alg».proof.Proof.Gen.KernelIdeal.Points
import proofs.«120160_j74345883894179_1_alg».proof.Proof.Gen.KernelIdeal.Frame
import proofs.«120160_j74345883894179_1_alg».proof.Proof.Gen.ReferenceIdeal
import proofs.«120160_j74345883894179_1_alg».proof.Proof.Gen.Pre_finite_inputs
import proofs.«120160_j74345883894179_1_alg».proof.Proof.Gen.ReferenceIdeal.Run
import proofs.«120160_j74345883894179_1_alg».proof.Proof.Gen.ReferenceIdeal.Read
import proofs.«120160_j74345883894179_1_alg».proof.Proof.KernelRun
import proofs.«120160_j74345883894179_1_alg».proof.Proof.Region0
import proofs.«120160_j74345883894179_1_alg».proof.Proof.Region1
import proofs.«120160_j74345883894179_1_alg».proof.Proof.Region2
import proofs.«120160_j74345883894179_1_alg».proof.Proof.Region3
import proofs.«120160_j74345883894179_1_alg».proof.Proof.Region4
import proofs.«120160_j74345883894179_1_alg».proof.Proof.Region5
import proofs.«120160_j74345883894179_1_alg».proof.Proof.Region6
import proofs.«120160_j74345883894179_1_alg».proof.Proof.Walk
import proofs.«120160_j74345883894179_1_alg».proof.Proof.Join
import Idealize.ShloMosaic.Adequacy
import Idealize.ShloMosaic.Init

noncomputable section

namespace Cert.Proof

open Idealize.ShloMosaic Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The values -/

/-- The kernel program's result array, at the extended reals, is the reference's function of the arguments: the last
    boundary's contents are the stage composite (the seven regions' arrays and the host stretches between them), and the
    stage composite is the reference's term. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W14 (F := Ideal) m ρ c (Proc.devRef .tc Cert.KernelIdeal.main_v83)
      = Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  (Cert.KernelIdeal.Walk.result_eq Cert.KernelIdeal.Region0.value Cert.KernelIdeal.Region1.value Cert.KernelIdeal.Region2.value
      Cert.KernelIdeal.Region3.value Cert.KernelIdeal.Region4.value Cert.KernelIdeal.Region5.value Cert.KernelIdeal.Region6.value m ρ c).trans
    (Cert.Join.out_eq _ _ _ _ _ _ _ _)

/-- From memories agreeing on the arguments both programs end with the reference's function of the arguments in their
    result arrays and the arguments unchanged. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (kernel_result m ρ c), (h c).2⟩)
      (Cert.KernelIdeal.ValueRun.run_named (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v95_eq, a0, a1, a2, a3, a4, a5, a6, a7]

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
